-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 4294963200#32
  let main_v19 : IVec S4096 32 := broadcastInDim S4096 ![] bcast_S_S4096 main_c_6
  let main_v20 : IVec S4096 1 := cmpi .sge main_arg4 main_v19
  let main_c_7 : IVec S_ 32 := constantI S_ 32 4096#32
  let main_v21 : IVec S4096 32 := broadcastInDim S4096 ![] bcast_S_S4096 main_c_7
  let main_v22 : IVec S4096 1 := cmpi .slt main_arg4 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S2x512x4096 .f32) (main_arg1 : IVec S4096x4096 32) (main_arg2 : FVec F S4096x32 .f32) (main_arg3 : FVec F S4096x32 .f32) (main_arg4 : IVec S4096 32) (main_arg5 : FVec F S4096 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S2x512x4096 : Shape := ⟨3, ![2, 512, 4096]⟩
abbrev S4096x4096 : Shape := ⟨2, ![4096, 4096]⟩
abbrev S4096x32 : Shape := ⟨2, ![4096, 32]⟩
abbrev S4096 : Shape := ⟨1, ![4096]⟩
abbrev S1024x4096 : Shape := ⟨2, ![1024, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x32 : Shape := ⟨2, ![1, 32]⟩
abbrev S32x4096 : Shape := ⟨2, ![32, 4096]⟩
abbrev S1x4096 : Shape := ⟨2, ![1, 4096]⟩
abbrev S1024x512 : Shape := ⟨2, ![1024, 512]⟩
abbrev S1024x32 : Shape := ⟨2, ![1024, 32]⟩
abbrev S32x512 : Shape := ⟨2, ![32, 512]⟩
abbrev S1x1024 : Shape := ⟨2, ![1, 1024]⟩
abbrev S1024x1024 : Shape := ⟨2, ![1024, 1024]⟩

abbrev nBuf : Space → Nat
  | .hbm => 107
  | .vmem => 15
  | .smem => 0
  | _ => 0

abbrev bufTy : (tb : Table) → Fin (tcTables nBuf tb) → BufTy
  | .hbm, ⟨0, _⟩ => ⟨S2x512x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .i32⟩
  | .hbm, ⟨5, _⟩ => ⟨S4096, .f32⟩
  | .hbm, ⟨6, _⟩ => ⟨S1024x4096, .f32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S1x1, .i32⟩
  | .hbm, ⟨42, _⟩ => ⟨S4096x1, .i32⟩
  | .hbm, ⟨43, _⟩ => ⟨S4096x1, .i1⟩
  | .hbm, ⟨44, _⟩ => ⟨S4096x1, .i1⟩
  | .hbm, ⟨45, _⟩ => ⟨S_, .i1⟩
  | .hbm, ⟨46, _⟩ => ⟨S4096, .i1⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S1x32, .i32⟩
  | .hbm, ⟨53, _⟩ => ⟨S4096x32, .i32⟩
  | .hbm, ⟨54, _⟩ => ⟨S4096x32, .i32⟩
  | .hbm, ⟨55, _⟩ => ⟨S4096x32, .i1⟩
  | .hbm, ⟨56, _⟩ => ⟨S4096x32, .f32⟩
  | .hbm, ⟨57, _⟩ => ⟨S32x4096, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S1, .i32⟩
  | .hbm, ⟨67, _⟩ => ⟨S_, .i32⟩
  | .hbm, ⟨68, _⟩ => ⟨S4096x1, .i32⟩
  | .hbm, ⟨69, _⟩ => ⟨S4096x1, .i1⟩
  | .hbm, ⟨70, _⟩ => ⟨S1x1, .i32⟩
  | .hbm, ⟨71, _⟩ => ⟨S4096x1, .i32⟩
  | .hbm, ⟨72, _⟩ => ⟨S4096x1, .i1⟩
  | .hbm, ⟨73, _⟩ => ⟨S4096x1, .i1⟩
  | .hbm, ⟨74, _⟩ => ⟨S_, .i1⟩
  | .hbm, ⟨75, _⟩ => ⟨S4096, .i1⟩
  | .hbm, ⟨76, _⟩ => ⟨S4096x4096, .i32⟩
  | .hbm, ⟨77, _⟩ => ⟨S4096x4096, .i1⟩
  | .hbm, ⟨78, _⟩ => ⟨S_, .i32⟩
  | .hbm, ⟨79, _⟩ => ⟨S4096x4096, .i32⟩
  | .hbm, ⟨80, _⟩ => ⟨S4096x4096, .i32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S1, .i32⟩
  | .hbm, ⟨90, _⟩ => ⟨S_, .i32⟩
  | .hbm, ⟨91, _⟩ => ⟨S4096x1, .i32⟩
  | .hbm, ⟨92, _⟩ => ⟨S4096x1, .i1⟩
  | .hbm, ⟨93, _⟩ => ⟨S1x1, .i32⟩
  | .hbm, ⟨94, _⟩ => ⟨S4096x1, .i32⟩
  | .hbm, ⟨95, _⟩ => ⟨S4096x1, .i1⟩
  | .hbm, ⟨96, _⟩ => ⟨S4096x1, .i1⟩
  | .hbm, ⟨97, _⟩ => ⟨S_, .i1⟩
  | .hbm, ⟨98, _⟩ => ⟨S4096, .i1⟩
  | .hbm, ⟨99, _⟩ => ⟨S1024x4096, .f32⟩
  | .hbm, ⟨100, _⟩ => ⟨S1024x4096, .i1⟩
  | .hbm, ⟨101, _⟩ => ⟨S_, .f32⟩
  | .hbm, ⟨102, _⟩ => ⟨S1024x4096, .f32⟩
  | .hbm, ⟨103, _⟩ => ⟨S1024x4096, .f32⟩
  | .hbm, ⟨104, _⟩ => ⟨S1x4096, .f32⟩
  | .hbm, ⟨105, _⟩ => ⟨S1024x4096, .f32⟩
  | .hbm, ⟨106, _⟩ => ⟨S2x512x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S32x512, .f32⟩
  | .local _ .vmem, ⟨9, _⟩ => ⟨S32x512, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v3 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_c_4 : Ref sig .tc := ⟨.hbm, 48, rfl⟩
abbrev main_call2_v14 : Ref sig .tc := ⟨.hbm, 49, rfl⟩
abbrev main_v4 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v5 : Ref sig .tc := ⟨.hbm, 56, rfl⟩
abbrev main_v6 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c_1 : Ref sig .tc := ⟨.hbm, 66, rfl⟩
abbrev main_call4_c_2 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_3 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_call4_c_4 : Ref sig .tc := ⟨.hbm, 78, rfl⟩
abbrev main_call4_v15 : Ref sig .tc := ⟨.hbm, 79, rfl⟩
abbrev main_v7 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_call5_c_0 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_c_1 : Ref sig .tc := ⟨.hbm, 89, rfl⟩
abbrev main_call5_c_2 : Ref sig .tc := ⟨.hbm, 90, rfl⟩
abbrev main_call5_v6 : Ref sig .tc := ⟨.hbm, 91, rfl⟩
abbrev main_call5_v7 : Ref sig .tc := ⟨.hbm, 92, rfl⟩
abbrev main_call5_v8 : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_call5_c_3 : Ref sig .tc := ⟨.hbm, 97, rfl⟩
abbrev main_call5_v12 : Ref sig .tc := ⟨.hbm, 98, rfl⟩
abbrev main_call5_v13 : Ref sig .tc := ⟨.hbm, 99, rfl⟩
abbrev main_call5_v14 : Ref sig .tc := ⟨.hbm, 100, rfl⟩
abbrev main_call5_cst : Ref sig .tc := ⟨.hbm, 101, rfl⟩
abbrev main_call5_v15 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2x512x4096_S1024x4096 : S2x512x4096.ShapeCasts S1024x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  transposes_S4096x32_S32x4096_1_0 : S4096x32.Transposes [1, 0] S32x4096
  bcast_S4096_S4096x4096_1 : S4096.BroadcastsInDim S4096x4096 (![1] : Fin 1 → Fin S4096x4096.rank)
  bcast_S_S4096x4096 : S_.BroadcastsInDim S4096x4096 (![] : Fin 0 → Fin S4096x4096.rank)
  bcast_S4096_S1024x4096_1 : S4096.BroadcastsInDim S1024x4096 (![1] : Fin 1 → Fin S1024x4096.rank)
  bcast_S_S1024x4096 : S_.BroadcastsInDim S1024x4096 (![] : Fin 0 → Fin S1024x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x4096_S2x512x4096 : S1024x4096.ShapeCasts S2x512x4096
  gather_S4096_S4096x1_S4096_n_0_n_n_0_1_1_wf : GatherDims.WF S4096 S4096x1 S4096 [] [0] [] [0] [] 1 ![1]
  gather_S4096x4096_S4096x1_S4096x4096_0_1_n_n_1_1_40961_wf : GatherDims.WF S4096x4096 S4096x1 S4096x4096 [0] [1] [] [1] [] 1 ![4096, 1]
  gather_S1024x4096_S4096x1_S1024x4096_0_1_n_n_1_1_10241_wf : GatherDims.WF S1024x4096 S4096x1 S1024x4096 [0] [1] [] [1] [] 1 ![1024, 1]
  dot_S1024x32_S32x512_S1024x512_1_0_0_1_n_n_wf : DotDims.WF S1024x32 S32x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .f32 = 32 ∨ (Rect.block (s := S1024x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x4096.size a
  hwx0_4 : ∀ i : grid0.Coords, EltTy.bits .f32 = 32 ∨ (Rect.block (s := S32x4096) S32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x4096.size a
  hwx0_6 : ∀ i : grid0.Coords, EltTy.bits .f32 = 32 ∨ (Rect.block (s := S1024x4096) S1024x1024.size (cc0_transform_6 i) (hinb0_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def gather_S1024x4096_S4096x1_S1024x4096_0_1_n_n_1_1_10241 : GatherDims S1024x4096 S4096x1 S1024x4096 where
  offsetDims := [0]
  collapsedSliceDims := [1]
  operandBatchingDims := []
  startIndicesBatchingDims := []
  startIndexMap := [1]
  indexVectorDim := 1
  sliceSizes := ![1024, 1]
  wf := gather_S1024x4096_S4096x1_S1024x4096_0_1_n_n_1_1_10241_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x512x4096 : Shape := ⟨3, ![2, 512, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .i32⟩
  | .hbm, ⟨5, _⟩ => ⟨S4096, .f32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x32x128, .i32⟩
  | .hbm, ⟨10, _⟩ => ⟨S4096x32x128, .f32⟩
  | .hbm, ⟨11, _⟩ => ⟨S4096x32x1, .f32⟩
  | .hbm, ⟨12, _⟩ => ⟨S4096x32x128, .f32⟩
  | .hbm, ⟨13, _⟩ => ⟨S4096x32x128, .f32⟩
  | .hbm, ⟨14, _⟩ => ⟨S4096x32x1, .f32⟩
  | .hbm, ⟨15, _⟩ => ⟨S4096x32x128, .f32⟩
  | .hbm, ⟨16, _⟩ => ⟨S4096x32x128, .f32⟩
  | .hbm, ⟨17, _⟩ => ⟨S4096x4096, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S2x512x4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x4096, .f32⟩
  | .hbm, ⟨36, _⟩ => ⟨S2x512x4096, .f32⟩
  | .hbm, ⟨37, _⟩ => ⟨S1x1x4096, .f32⟩
  | .hbm, ⟨38, _⟩ => ⟨S2x512x4096, .f32⟩
  | .hbm, ⟨39, _⟩ => ⟨S2x512x4096, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S2x512x4096_0_1_2 : S1x1x4096.BroadcastsInDim S2x512x4096 (![0, 1, 2] : Fin 3 → Fin S2x512x4096.rank)
  gather_S2x512x4096_S4096x1_S2x512x4096_01_2_n_n_2_1_25121_wf : GatherDims.WF S2x512x4096 S4096x1 S2x512x4096 [0, 1] [2] [] [2] [] 1 ![2, 512, 1]
  gather_S4096x4096_S4096x1_S4096x4096_0_1_n_n_1_1_40961_wf : GatherDims.WF S4096x4096 S4096x1 S4096x4096 [0] [1] [] [1] [] 1 ![4096, 1]
  dot_S2x512x4096_S4096x4096_S2x512x4096_2_1_01_0_n_n_wf : DotDims.WF S2x512x4096 S4096x4096 S2x512x4096 [2] [1] [0, 1] [0] [] []

variable [Facts₀]

def comparator_i32_i32_d0 : BitVec 32 × BitVec 32 → BitVec 32 × BitVec 32 → BitVec 1 :=
  fun l r =>
    let v2 := IntOp.cmpi .slt l.1 r.1
    v2
def gather_S2x512x4096_S4096x1_S2x512x4096_01_2_n_n_2_1_25121 : GatherDims S2x512x4096 S4096x1 S2x512x4096 where
  offsetDims := [0, 1]
  collapsedSliceDims := [2]
  operandBatchingDims := []
  startIndicesBatchingDims := []
  startIndexMap := [2]
  indexVectorDim := 1
  sliceSizes := ![2, 512, 1]
  wf := gather_S2x512x4096_S4096x1_S2x512x4096_01_2_n_n_2_1_25121_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S2x512x4096_S4096x4096_S2x512x4096_2_1_01_0_n_n : DotDims S2x512x4096 S4096x4096 S2x512x4096 where
  lhsContracting := [2]
  rhsContracting := [1]
  lhsNonContracting := [0, 1]
  rhsNonContracting := [0]
  lhsBatch := []
  rhsBatch := []
  wf := dot_S2x512x4096_S4096x4096_S2x512x4096_2_1_01_0_n_n_wf

class Facts : Prop extends Facts₀ where

variable [Facts]
-- ==== Proof.Spec.lean ====
/-
  The function both programs compute, and the word arithmetic and sums that join their two spellings of it.

  With `ip = argsort perm` (a stable sort of the positions by `perm`'s entries), `w j = j` for `j ≥ 0` and
  `j + 4096` for `j < 0` (jnp's reading of a negative index), and `col v` the column a gather along an axis of extent
  4096 reads for a start word `v` (`v` read signed and clamped into [0, 4095]), the result at (b, s, o) is

      Σ_{i < 4096}  x[b, s, col (w perm[i])] · (alpha[o, c_i / 128] · T[o, c_i] + mu[o, c_i / 128])  +  bias[o],
      c_i = col (w ip[i]),

  a sum of 4096 products on the extended reals. The reference spells the weight as a reshaped [4096, 32, 128] array
  gathered along its columns; the kernel gathers the integer codes first, selects `alpha` and `mu` by a product with a
  0/1 matrix of 32 rows, and adds the 4096 products up in eight runs of 512.
-/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.SortFacts

noncomputable section

namespace Cert.Tern

open Idealize.ShloMosaic Idealize.ShloMosaic.ValueIdx

/-! ## Index words -/

/-- jnp's reading of a possibly negative index into an axis of extent 4096: a negative word has the extent added. -/
def wrap (p : BitVec 32) : BitVec 32 := Scalar.select (IntOp.cmpi .slt p 0#32) (IntOp.addi p 4096#32) p

/-- The column a gather along an axis of extent 4096 reads for the start word `v`: `v` read signed, clamped into
    [0, 4095]. -/
def col (v : BitVec 32) : Fin 4096 := ⟨min v.toInt.toNat 4095, by omega⟩

/-- The block of 128 columns a column lies in. -/
def blk (q : Fin 4096) : Fin 32 := ⟨q.val / 128, by omega⟩

/-- A word that indexes an axis of extent 4096 the way NumPy reads indices: −4096 ≤ p < 4096. -/
def Valid (p : BitVec 32) : Prop := IntOp.cmpi .sge p 4294963200#32 = 1#1 ∧ IntOp.cmpi .slt p 4096#32 = 1#1

/-- The bounds test of a take that fills out-of-range positions: 0 ≤ v ≤ 4095. -/
def inb (v : BitVec 32) : BitVec 1 := IntOp.andi (IntOp.cmpi .sge v 0#32) (IntOp.cmpi .sle v 4095#32)

/-- The positions sorted stably by the entries of `perm`. -/
def argsort (perm : IVec ⟨1, ![4096]⟩ 32) : IVec ⟨1, ![4096]⟩ 32 :=
  (Host.sort2 ⟨1, ![4096]⟩ 0 (fun l r : BitVec 32 × BitVec 32 => IntOp.cmpi .slt l.1 r.1) perm (iotaInDim ⟨1, ![4096]⟩ 32 0)).2

/-- The column of `x` that position `i` reads. -/
def cp (perm : IVec ⟨1, ![4096]⟩ 32) (i : Fin 4096) : Fin 4096 := col (wrap (perm (ix1 i)))

/-- The column of the weight that position `i` reads. -/
def cq (perm : IVec ⟨1, ![4096]⟩ 32) (i : Fin 4096) : Fin 4096 := col (wrap (argsort perm (ix1 i)))

/-! ## The result -/

/-- The weight at output row `o` and column `q`: the block's scale times the integer code plus the block's offset. -/
def weight (T : IVec ⟨2, ![4096, 4096]⟩ 32) (alpha mu : (⟨2, ![4096, 32]⟩ : Shape).Idx → EReal) (o q : Fin 4096) : EReal :=
  alpha (ix2 o (blk q)) * (((T (ix2 o q)).toInt : ℝ) : EReal) + mu (ix2 o (blk q))

/-- One entry of the result. -/
def linAt (x : (⟨3, ![2, 512, 4096]⟩ : Shape).Idx → EReal) (T : IVec ⟨2, ![4096, 4096]⟩ 32)
    (alpha mu : (⟨2, ![4096, 32]⟩ : Shape).Idx → EReal) (perm : IVec ⟨1, ![4096]⟩ 32) (bias : (⟨1, ![4096]⟩ : Shape).Idx → EReal)
    (b : Fin 2) (s : Fin 512) (o : Fin 4096) : EReal :=
  (∑ i : Fin 4096, x (ix3 b s (cp perm i)) * weight T alpha mu o (cq perm i)) + bias (ix1 o)

/-- The result array. -/
def lin (x : (⟨3, ![2, 512, 4096]⟩ : Shape).Idx → EReal) (T : IVec ⟨2, ![4096, 4096]⟩ 32)
    (alpha mu : (⟨2, ![4096, 32]⟩ : Shape).Idx → EReal) (perm : IVec ⟨1, ![4096]⟩ 32) (bias : (⟨1, ![4096]⟩ : Shape).Idx → EReal) :
    (⟨3, ![2, 512, 4096]⟩ : Shape).Idx → EReal :=
  fun j => linAt x T alpha mu perm bias ⟨(j 0).val, (j 0).isLt⟩ ⟨(j 1).val, (j 1).isLt⟩ ⟨(j 2).val, (j 2).isLt⟩

theorem lin_apply (x T alpha mu perm bias) (b : Fin 2) (s : Fin 512) (o : Fin 4096) :
    lin x T alpha mu perm bias (ix3 b s o) = linAt x T alpha mu perm bias b s o := rfl

/-! ## The kernel's spelling: eight runs of 512 columns, the scales selected by a 0/1 matrix -/

/-- Column `j` of run `k`. -/
def colOf (k : Fin 8) (j : Fin 512) : Fin 4096 := ⟨k.val * 512 + j.val, by omega⟩

/-- Row `q` of the `oi`-th band of 1024 output rows. -/
def rowOf (oi : Fin 4) (q : Fin 1024) : Fin 4096 := ⟨oi.val * 1024 + q.val, by omega⟩

/-- The weight the kernel forms at output row `o` and (gathered) column `i`: the scales and offsets of the row combined
    with column `i` of the 0/1 matrix, around the gathered integer code. -/
def kWeight (Tp : IVec ⟨2, ![4096, 4096]⟩ 32) (A M : (⟨2, ![4096, 32]⟩ : Shape).Idx → EReal)
    (OH : (⟨2, ![32, 4096]⟩ : Shape).Idx → EReal) (o i : Fin 4096) : EReal :=
  (∑ b : Fin 32, A (ix2 o b) * OH (ix2 b i)) * (((Tp (ix2 o i)).toInt : ℝ) : EReal) + ∑ b : Fin 32, M (ix2 o b) * OH (ix2 b i)

/-- One run's contribution to entry (p, o). -/
def kRun (X : (⟨2, ![1024, 4096]⟩ : Shape).Idx → EReal) (Tp : IVec ⟨2, ![4096, 4096]⟩ 32)
    (A M : (⟨2, ![4096, 32]⟩ : Shape).Idx → EReal) (OH : (⟨2, ![32, 4096]⟩ : Shape).Idx → EReal)
    (p : Fin 1024) (o : Fin 4096) (k : Fin 8) : EReal :=
  ∑ j : Fin 512, X (ix2 p (colOf k j)) * kWeight Tp A M OH o (colOf k j)

/-- What the kernel's output array holds at (p, o), as a function of the arrays the region finds: the eight runs added
    up, then the bias. -/
def kernelOut (X : (⟨2, ![1024, 4096]⟩ : Shape).Idx → EReal) (Tp : IVec ⟨2, ![4096, 4096]⟩ 32)
    (A M : (⟨2, ![4096, 32]⟩ : Shape).Idx → EReal) (OH : (⟨2, ![32, 4096]⟩ : Shape).Idx → EReal)
    (B2 : (⟨2, ![1, 4096]⟩ : Shape).Idx → EReal) (p : Fin 1024) (o : Fin 4096) : EReal :=
  (∑ k : Fin 8, kRun X Tp A M OH p o k) + B2 (ix2 (0 : Fin 1) o)

/-! ## jnp's floor division by 128 and the 0/1 test, as printed -/

/-- The sign of a word: 0, −1 or 1. -/
def sgn (x : BitVec 32) : BitVec 32 := if x = 0 then 0 else if x.msb then -1 else 1

/-- jnp's `x // 128` on 32-bit words as it prints: the truncated quotient, less one when the signs differ and the
    remainder is not zero. -/
def fdiv128 (x : BitVec 32) : BitVec 32 :=
  Scalar.select (IntOp.andi (IntOp.cmpi .ne (sgn x) (sgn 128#32)) (IntOp.cmpi .ne (IntOp.remsi .host x 128#32) 0#32))
    (IntOp.subi (IntOp.divsi .host x 128#32) 1#32) (IntOp.divsi .host x 128#32)

end Cert.Tern

end
-- ==== Proof.Precondition.lean ====
/-
  What the precondition says of `perm`: every entry is a valid index into an axis of extent 4096 (−4096 ≤ perm[i] < 4096).
  The printed predicate is a conjunction of five all-reductions; the last one is over the entrywise test
  (perm ≥ −4096) ∧ (perm < 4096).
-/
import proofs.«404446_j87608742904344_1_alg».proof.Defs
import proofs.«404446_j87608742904344_1_alg».proof.Proof.Spec
import Idealize.ShloMosaic.Lib.ReduceAll
import Idealize.ShloMosaic.Lib.Affine

noncomputable section

namespace Cert.Tern

open Idealize.ShloMosaic Idealize.ShloMosaic.ValueIdx

instance : Subsingleton (Cert.Pre_finite_inputs.S_).Idx := ⟨fun a b => funext fun d => d.elim0⟩

/-- The printed predicate, all ones, gives the entrywise test at every position. -/
theorem valid_of_fn [Cert.Pre_finite_inputs.Facts] {F : FTy → Type} [FloatOps F]
    (x : FVec F Cert.Pre_finite_inputs.S2x512x4096 .f32) (T : IVec Cert.Pre_finite_inputs.S4096x4096 32)
    (alpha mu : FVec F Cert.Pre_finite_inputs.S4096x32 .f32) (perm : IVec Cert.Pre_finite_inputs.S4096 32)
    (bias : FVec F Cert.Pre_finite_inputs.S4096 .f32)
    (h : Cert.Pre_finite_inputs.fn (F := F) x T alpha mu perm bias = fun _ => 1#1) (i : Fin 4096) :
    Valid (perm (ix1 i)) := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 i)
  exact IntOp.andi_eq_one.1 h2

end Cert.Tern

end
-- ==== Proof.Sums.lean ====
/-
  Two facts about finite sums on the extended reals: a sum against a 0/1 row picks one term, and eight runs of 512
  terms are the 4096 terms.
-/
import proofs.«404446_j87608742904344_1_alg».proof.Proof.Spec

noncomputable section

namespace Cert.Tern

open Idealize.ShloMosaic Idealize.ShloMosaic.ValueIdx

/-- A sum of products with a row that is 1 at `q` and 0 elsewhere is the `q`-th factor (on the extended reals
    `a · 0 = 0` for every `a`, the infinities included). -/
theorem sum_onehot (a : Fin 32 → EReal) (q : Fin 32) :
    (∑ b : Fin 32, a b * (if q = b then (1 : EReal) else 0)) = a q := by
  rw [Finset.sum_eq_single q]
  · rw [if_pos rfl, mul_one]
  · intro b _ hb
    rw [if_neg (fun e => hb e.symm), mul_zero]
  · intro hq
    exact absurd (Finset.mem_univ q) hq

/-- Place `j` of run `k` is column `512 k + j`: a bijection of the 8 × 512 pairs with the 4096 columns, its inverse the
    quotient and remainder by 512. -/
private def runEquiv : Fin 8 × Fin 512 ≃ Fin 4096 where
  toFun x := colOf x.1 x.2
  invFun i := (⟨i.val / 512, by have := i.isLt; omega⟩, ⟨i.val % 512, by omega⟩)
  left_inv x := by
    obtain ⟨k, j⟩ := x
    have hk := k.isLt
    have hj := j.isLt
    refine Prod.ext (Fin.ext ?_) (Fin.ext ?_)
    · show (k.val * 512 + j.val) / 512 = k.val
      omega
    · show (k.val * 512 + j.val) % 512 = j.val
      omega
  right_inv i := by
    apply Fin.ext
    show i.val / 512 * 512 + i.val % 512 = i.val
    omega

/-- Eight runs of 512 consecutive terms are all 4096 terms (addition on the extended reals is commutative and
    associative; nothing else is used). -/
theorem sum_runs {M : Type*} [AddCommMonoid M] (f : Fin 4096 → M) :
    (∑ k : Fin 8, ∑ j : Fin 512, f (colOf k j)) = ∑ i : Fin 4096, f i := by
  rw [← Fintype.sum_prod_type' (fun k j => f (colOf k j))]
  exact Fintype.sum_equiv runEquiv _ _ (fun _ => rfl)

end Cert.Tern

end
-- ==== Proof.KernelEntry.lean ====
/-
  The arrays the kernel region finds, read at an index as functions of the program's arguments: the gathered `x`
  (rows b·512 + s; column i reads `x`'s column `cp i` when `perm[i]` is a valid index), the gathered integer codes
  (column i reads column `cq i`), the 0/1 matrix (row b, column i: whether column `cq i` lies in block b), and the
  bias as a row.
-/
import proofs.«404446_j87608742904344_1_alg».proof.Proof.Gen.KernelIdeal.Frame
import proofs.«404446_j87608742904344_1_alg».proof.Proof.Spec

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.Tern

variable (m : (ℓ : Loc nD τ sig) → Buf (Elt Ideal) ℓ)

/-- The program's arguments on core `c`. -/
abbrev argX (c : Dev nD) : S2x512x4096.Idx → EReal := m ((c : Thread nD τ).loc main_arg0)
abbrev argT (c : Dev nD) : IVec S4096x4096 32 := m ((c : Thread nD τ).loc main_arg1)
abbrev argA (c : Dev nD) : S4096x32.Idx → EReal := m ((c : Thread nD τ).loc main_arg2)
abbrev argM (c : Dev nD) : S4096x32.Idx → EReal := m ((c : Thread nD τ).loc main_arg3)
abbrev argP (c : Dev nD) : IVec S4096 32 := m ((c : Thread nD τ).loc main_arg4)
abbrev argB (c : Dev nD) : S4096.Idx → EReal := m ((c : Thread nD τ).loc main_arg5)

/-- The region's entry arrays, typed by their literal shapes. -/
abbrev entX (c : Dev nD) : S1024x4096.Idx → EReal := V m c main_v8
abbrev entT (c : Dev nD) : IVec S4096x4096 32 := V m c main_v7
abbrev entA (c : Dev nD) : S4096x32.Idx → EReal := V m c main_arg2
abbrev entM (c : Dev nD) : S4096x32.Idx → EReal := V m c main_arg3
abbrev entOH (c : Dev nD) : S32x4096.Idx → EReal := V m c main_v6
abbrev entB (c : Dev nD) : S1x4096.Idx → EReal := V m c main_v9

/-- The scales and offsets are the arguments themselves. -/
theorem entry_alpha (c : Dev nD) : entA m c = argA m c := V_main_arg2 m c
theorem entry_mu (c : Dev nD) : entM m c = argM m c := V_main_arg3 m c

end Cert.KernelIdeal.Entry

end
-- ==== Proof.Words.lean ====
/-
  Facts about 32-bit index words: a wrapped valid index passes the bounds test of a filling take; the sorted positions
  are positions; floor division of a position by 128; the 0/1 test of a block number.
-/
import proofs.«404446_j87608742904344_1_alg».proof.Proof.Spec

noncomputable section

namespace Cert.Tern

open Idealize.ShloMosaic Idealize.ShloMosaic.ValueIdx

/-! ## Comparison words read as statements about the signed values -/

/-- A one-bit word made from a Boolean is 1 exactly when the Boolean is true. -/
private theorem ofBool_one {b : Bool} : BitVec.ofBool b = 1#1 ↔ b = true := by cases b <;> decide

private theorem cmpi_slt_iff {x y : BitVec 32} : IntOp.cmpi .slt x y = 1#1 ↔ x.toInt < y.toInt := by
  simp only [IntOp.cmpi, ofBool_one, BitVec.slt_iff_toInt_lt]

private theorem cmpi_sle_iff {x y : BitVec 32} : IntOp.cmpi .sle x y = 1#1 ↔ x.toInt ≤ y.toInt := by
  simp only [IntOp.cmpi, ofBool_one, BitVec.sle_iff_toInt_le]

private theorem cmpi_sge_iff {x y : BitVec 32} : IntOp.cmpi .sge x y = 1#1 ↔ y.toInt ≤ x.toInt := by
  simp only [IntOp.cmpi, ofBool_one, BitVec.sle_iff_toInt_le]

private theorem cmpi_ne_iff {x y : BitVec 32} : IntOp.cmpi .ne x y = 1#1 ↔ x ≠ y := by
  simp only [IntOp.cmpi, ofBool_one, bne_iff_ne, ne_eq]

/-- The conjunction of two one-bit words is 1 exactly when both are. -/
private theorem andi_one_iff {c d : BitVec 1} : IntOp.andi c d = 1#1 ↔ c = 1#1 ∧ d = 1#1 := by revert c d; decide

/-- A word whose signed value lies in [0, 4095] passes the bounds test. -/
theorem inb_of_range {v : BitVec 32} (h0 : 0 ≤ v.toInt) (h1 : v.toInt ≤ 4095) : inb v = 1#1 := by
  have z : (0#32 : BitVec 32).toInt = 0 := by decide
  have t : (4095#32 : BitVec 32).toInt = 4095 := by decide
  unfold inb
  rw [andi_one_iff, cmpi_sge_iff, cmpi_sle_iff, z, t]
  exact ⟨h0, h1⟩

/-- A non-negative word is its own wrapped reading. -/
theorem wrap_of_nonneg {v : BitVec 32} (h : 0 ≤ v.toInt) : wrap v = v := by
  have c0 : (0#32 : BitVec 32).toInt = 0 := by decide
  unfold wrap Scalar.select
  exact if_neg (fun hc => by have := cmpi_slt_iff.mp hc; rw [c0] at this; omega)

/-- A negative word has the extent added. -/
theorem wrap_of_neg {v : BitVec 32} (h : v.toInt < 0) : wrap v = IntOp.addi v 4096#32 := by
  have c0 : (0#32 : BitVec 32).toInt = 0 := by decide
  unfold wrap Scalar.select
  exact if_pos (cmpi_slt_iff.mpr (by rw [c0]; exact h))

/-- A valid index, wrapped, lies in [0, 4095]: the filling take's bounds test passes. -/
theorem inb_wrap_of_valid {p : BitVec 32} (h : Valid p) : inb (wrap p) = 1#1 := by
  obtain ⟨h1, h2⟩ := h
  have c1 : (4294963200#32 : BitVec 32).toInt = -4096 := by decide
  have c2 : (4096#32 : BitVec 32).toInt = 4096 := by decide
  have c0 : (0#32 : BitVec 32).toInt = 0 := by decide
  rw [cmpi_sge_iff, c1] at h1
  rw [cmpi_slt_iff, c2] at h2
  by_cases hlt : p.toInt < 0
  · -- a negative index: 4096 is added, and −4096 ≤ p < 0 gives 0 ≤ p + 4096 < 4096 with no wrap-around
    have e : (IntOp.addi p 4096#32).toInt = p.toInt + 4096 := by
      unfold IntOp.addi
      rw [BitVec.toInt_add, c2]
      exact Int.bmod_eq_of_le_mul_two (by omega) (by omega)
    rw [wrap_of_neg hlt]
    exact inb_of_range (by omega) (by omega)
  · -- a non-negative index is left alone
    rw [wrap_of_nonneg (by omega)]
    exact inb_of_range (by omega) (by omega)

/-- Sorting a vector of any extent `n` together with the positions 0, …, n − 1 permutes the positions: every entry of
    the second result is the word of some `k < n` (the coordinate of an index into the vector). Stated at a general
    extent, where the sorting permutation is an opaque value. -/
private theorem sort2_iota_range {n : ℕ} {α : Type} (cmp : α × BitVec 32 → α × BitVec 32 → BitVec 1)
    (x : (⟨1, ![n]⟩ : Shape).Idx → α) (j : (⟨1, ![n]⟩ : Shape).Idx) :
    ∃ k : ℕ, k < n ∧ (Host.sort2 ⟨1, ![n]⟩ 0 cmp x (iotaInDim ⟨1, ![n]⟩ 32 0)).2 j = BitVec.ofNat 32 k := by
  unfold Host.sort2
  rw [dif_pos (show 0 < (⟨1, ![n]⟩ : Shape).rank from Nat.one_pos)]
  exact ⟨_, Fin.isLt _, rfl⟩

/-- Every entry of the sorted positions is a position: a word `k` with `k < 4096`. -/
theorem argsort_range (perm : IVec ⟨1, ![4096]⟩ 32) (i : Fin 4096) :
    ∃ k : ℕ, k < 4096 ∧ argsort perm (ix1 i) = BitVec.ofNat 32 k := by
  unfold argsort
  exact sort2_iota_range _ perm (ix1 i)

/-- So the sorted positions, wrapped, pass the bounds test. -/
theorem inb_wrap_argsort (perm : IVec ⟨1, ![4096]⟩ 32) (i : Fin 4096) : inb (wrap (argsort perm (ix1 i))) = 1#1 := by
  obtain ⟨k, hk, e⟩ := argsort_range perm i
  rw [e]
  have hk' : (BitVec.ofNat 32 k).toInt = k := StableHlo.Predicate.toInt_ofNat_small k (by omega)
  rw [wrap_of_nonneg (by omega)]
  exact inb_of_range (by omega) (by omega)

/-- Floor division of a position by 128 is the block number. -/
theorem fdiv128_ofNat (k : ℕ) (hk : k < 4096) : fdiv128 (BitVec.ofNat 32 k) = BitVec.ofNat 32 (k / 128) := by
  have hn : (BitVec.ofNat 32 k).toNat = k := by rw [BitVec.toNat_ofNat]; omega
  have hm : (BitVec.ofNat 32 k).msb = false := BitVec.msb_eq_false_iff_two_mul_lt.mpr (by rw [hn]; omega)
  have hm128 : (128#32 : BitVec 32).msb = false := by decide
  -- the divisor 128 is neither 0 nor −1: signed division meets no corner
  have hcorner : ¬ IntOp.SDivCorner (BitVec.ofNat 32 k) 128#32 := by
    intro hc; rcases hc with hc | ⟨_, hc⟩ <;> exact absurd hc (by decide)
  -- both operands are non-negative: the signed quotient and remainder are the unsigned ones
  have hdiv : IntOp.divsi .host (BitVec.ofNat 32 k) 128#32 = BitVec.ofNat 32 (k / 128) := by
    apply BitVec.eq_of_toNat_eq
    simp only [IntOp.divsi, if_neg hcorner, BitVec.sdiv_eq, hm, hm128, BitVec.udiv_eq, BitVec.toNat_udiv, BitVec.toNat_ofNat,
      Nat.reducePow, Nat.reduceMod]
    omega
  have hrem : (IntOp.remsi .host (BitVec.ofNat 32 k) 128#32).toNat = k % 128 := by
    simp only [IntOp.remsi, if_neg hcorner, BitVec.srem_eq, hm, hm128, BitVec.umod_eq, BitVec.toNat_umod, BitVec.toNat_ofNat,
      Nat.reducePow, Nat.reduceMod]
    omega
  have s128 : sgn 128#32 = 1 := by decide
  -- the correction never applies: at 0 the remainder is 0, and above 0 the signs agree
  have hcond : IntOp.andi (IntOp.cmpi .ne (sgn (BitVec.ofNat 32 k)) (sgn 128#32))
      (IntOp.cmpi .ne (IntOp.remsi .host (BitVec.ofNat 32 k) 128#32) 0#32) ≠ 1#1 := by
    intro hc
    obtain ⟨ha, hb⟩ := andi_one_iff.mp hc
    rw [cmpi_ne_iff] at ha hb
    by_cases h0 : k = 0
    · apply hb
      apply BitVec.eq_of_toNat_eq
      rw [hrem, h0]
      rfl
    · apply ha
      have hne : ¬ BitVec.ofNat 32 k = 0 := by
        intro e0
        have := congrArg BitVec.toNat e0
        rw [hn] at this
        exact h0 this
      rw [s128]
      unfold sgn
      rw [if_neg hne, hm]
      rfl
  unfold fdiv128 Scalar.select
  exact (if_neg hcond).trans hdiv

/-- The 0/1 test of a block number against a row of the 0/1 matrix, read as a real: 1 when they agree, else 0. -/
theorem onehot_ofNat (q : ℕ) (hq : q < 32) (b : Fin 32) :
    ((((IntOp.cmpi .eq (BitVec.ofNat 32 q) (BitVec.ofNat 32 b.val)).toNat : ℕ) : ℝ) : EReal) = if q = b.val then 1 else 0 := by
  by_cases h : q = b.val
  · have e : IntOp.cmpi .eq (BitVec.ofNat 32 q) (BitVec.ofNat 32 b.val) = 1#1 :=
      StableHlo.Predicate.cmpi_eq_iff.mpr (by rw [h])
    rw [e, if_pos h]
    simp
  · have ne : IntOp.cmpi .eq (BitVec.ofNat 32 q) (BitVec.ofNat 32 b.val) ≠ 1#1 := by
      intro e
      have e' := congrArg BitVec.toNat (StableHlo.Predicate.cmpi_eq_iff.mp e)
      have hb := b.isLt
      rw [BitVec.toNat_ofNat, BitVec.toNat_ofNat, Nat.mod_eq_of_lt (by omega), Nat.mod_eq_of_lt (by omega)] at e'
      exact h e'
    have e0 : IntOp.cmpi .eq (BitVec.ofNat 32 q) (BitVec.ofNat 32 b.val) = 0#1 := by
      rcases BitVec.eq_zero_or_eq_one (IntOp.cmpi .eq (BitVec.ofNat 32 q) (BitVec.ofNat 32 b.val)) with h0 | h1
      · exact h0
      · exact absurd h1 ne
    rw [e0, if_neg h]
    simp

end Cert.Tern

end
-- ==== Proof.Gather.lean ====
/-
  A gather along the LAST axis of a rank-2 or rank-3 array by a column of start words: result position `p` on that axis
  reads the column the `p`-th start word names, read signed and clamped into the axis; the other coordinates pass
  through.
-/
import Idealize.ShloMosaic.Lib.ValueIdx
import Idealize.ShloMosaic.Lib.StableHlo.Predicate

noncomputable section

namespace Cert.Tern

open Idealize.ShloMosaic Idealize.ShloMosaic.ValueIdx Idealize.ShloMosaic.StableHlo.Predicate

/-- In a rank-2 shape, the axes other than axis 0 are axis 1 alone. -/
private theorem kept2_not0 : ∀ e ∈ (List.finRange 2).filter (· ∉ [(0 : Fin 2)]), e = (1 : Fin 2) := by decide

/-- In a rank-3 shape, the axes other than axes 0 and 1 are axis 2 alone. -/
private theorem kept3_not01 : ∀ e ∈ (List.finRange 3).filter (· ∉ [(0 : Fin 3), 1]), e = (2 : Fin 3) := by decide

/-- In a rank-3 shape, the axes other than axis 2 are axes 0 and 1, in order. -/
private theorem kept3_not2 : (List.finRange 3).filter (· ∉ [(2 : Fin 3)] ++ []) = [(0 : Fin 3), 1] := by decide

/-- Reading a list known to be a given list, at a position known to be a given position. -/
private theorem getElem_of_eqs {β : Type} {l l' : List β} (h : l = l') {k k' : Nat} (e : k = k') (hk : k < l.length)
    (hk' : k' < l'.length) : l[k] = l'[k'] := by
  subst h; subst e; rfl

/-- Rank 2: `x[:, idx]`. -/
theorem gather_cols2 {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) (hN : 0 < N) :
    Host.gather d x idx (ix2 r p) = x (ix2 r ⟨min (idx (ixP p)).toInt.toNat (N - 1), by omega⟩) := by
  unfold Host.gather
  congr 1
  funext a
  apply Fin.ext
  have hb : ∀ c : Fin 2, c ∉ d.operandBatchingDims := fun c => by rw [hob]; exact List.not_mem_nil
  -- the result's one offset axis is axis 0, its one batch axis is axis 1
  have hoffs : ∀ e ∈ d.offsetDims, e = (0 : Fin 2) := by rw [hoff]; simp
  have hbat : ∀ e ∈ d.batchDims, e = (1 : Fin 2) := by
    have e : d.batchDims = (List.finRange 2).filter (· ∉ d.offsetDims) := rfl
    rw [e, hoff]; exact kept2_not0
  match a with
  | ⟨0, _⟩ =>
    -- the kept operand axis: no start component, no batching; the offset coordinate is the result's on axis 0
    have hk : (0 : Fin 2) ∈ d.sKept := by rw [GatherDims.mem_sKept, hcoll, hob]; simp
    have hm : (0 : Fin 2) ∉ d.startIndexMap := by rw [hsim]; simp
    show d.start (ix2 r p) idx (0 : Fin 2) + d.batchCoord (ix2 r p) (0 : Fin 2) + d.offCoord (ix2 r p) (0 : Fin 2) = r.val
    rw [d.batchCoord_eq_zero _ _ (hb 0), Nat.add_zero]
    unfold GatherDims.start GatherDims.offCoord
    rw [dif_neg hm, dif_pos hk, Nat.zero_add, hoffs _ (List.getElem_mem _)]
  | ⟨1, _⟩ =>
    -- the collapsed operand axis: the clamped start word
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 r p) idx (1 : Fin 2) + d.batchCoord (ix2 r p) (1 : Fin 2) + d.offCoord (ix2 r p) (1 : Fin 2)
      = min (idx (ixP p)).toInt.toNat (N - 1)
    rw [d.batchCoord_eq_zero _ _ (hb 1), d.offCoord_eq_zero _ _ hk]
    simp only [Nat.add_zero]
    unfold GatherDims.start
    rw [dif_pos hm]
    show min (idx _).toInt.toNat (N - d.sliceSizes 1) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbat _ (List.getElem_mem _)]
    | ⟨1, _⟩ =>
      unfold GatherDims.siIdx
      rw [dif_pos (by rw [hivd])]
      apply Fin.ext
      show List.idxOf (1 : Fin 2) d.startIndexMap = 0
      rw [hsim]; simp

/-- Rank 3: `x[:, :, idx]`. -/
theorem gather_cols3 {α : Type} {A B N n w : Nat} (d : GatherDims ⟨3, ![A, B, N]⟩ ⟨2, ![n, 1]⟩ ⟨3, ![A, B, n]⟩)
    (hoff : d.offsetDims = [0, 1]) (hcoll : d.collapsedSliceDims = [2]) (hob : d.operandBatchingDims = [])
    (hsim : d.startIndexMap = [2]) (hivd : d.indexVectorDim = 1)
    (x : (⟨3, ![A, B, N]⟩ : Shape).Idx → α) (idx : IVec ⟨2, ![n, 1]⟩ w) (a : Fin A) (b : Fin B) (p : Fin n) (hN : 0 < N) :
    Host.gather d x idx (ix3 a b p) = x (ix3 a b ⟨min (idx (ixP p)).toInt.toNat (N - 1), by omega⟩) := by
  unfold Host.gather
  congr 1
  funext c
  apply Fin.ext
  have hb : ∀ c : Fin 3, c ∉ d.operandBatchingDims := fun c => by rw [hob]; exact List.not_mem_nil
  -- the operand's kept axes are 0 and 1, read by the result's offset axes 0 and 1; the result's batch axis is axis 2
  have hsk : d.sKept = [(0 : Fin 3), 1] := by
    have e : d.sKept = (List.finRange 3).filter (· ∉ d.collapsedSliceDims ++ d.operandBatchingDims) := rfl
    rw [e, hcoll, hob]; exact kept3_not2
  have hbat : ∀ e ∈ d.batchDims, e = (2 : Fin 3) := by
    have e : d.batchDims = (List.finRange 3).filter (· ∉ d.offsetDims) := rfl
    rw [e, hoff]; exact kept3_not01
  match c with
  | ⟨0, _⟩ =>
    have hk : (0 : Fin 3) ∈ d.sKept := by rw [hsk]; simp
    have hm : (0 : Fin 3) ∉ d.startIndexMap := by rw [hsim]; simp
    have hi : d.sKept.idxOf (0 : Fin 3) = 0 := by rw [hsk]; decide
    show d.start (ix3 a b p) idx (0 : Fin 3) + d.batchCoord (ix3 a b p) (0 : Fin 3) + d.offCoord (ix3 a b p) (0 : Fin 3) = a.val
    rw [d.batchCoord_eq_zero _ _ (hb 0), Nat.add_zero]
    unfold GatherDims.start GatherDims.offCoord
    rw [dif_neg hm, dif_pos hk, Nat.zero_add, getElem_of_eqs hoff hi _ (by simp)]
    rfl
  | ⟨1, _⟩ =>
    have hk : (1 : Fin 3) ∈ d.sKept := by rw [hsk]; simp
    have hm : (1 : Fin 3) ∉ d.startIndexMap := by rw [hsim]; simp
    have hi : d.sKept.idxOf (1 : Fin 3) = 1 := by rw [hsk]; decide
    show d.start (ix3 a b p) idx (1 : Fin 3) + d.batchCoord (ix3 a b p) (1 : Fin 3) + d.offCoord (ix3 a b p) (1 : Fin 3) = b.val
    rw [d.batchCoord_eq_zero _ _ (hb 1), Nat.add_zero]
    unfold GatherDims.start GatherDims.offCoord
    rw [dif_neg hm, dif_pos hk, Nat.zero_add, getElem_of_eqs hoff hi _ (by simp)]
    rfl
  | ⟨2, _⟩ =>
    -- the collapsed operand axis: the clamped start word
    have hk : (2 : Fin 3) ∉ d.sKept := by rw [hsk]; simp
    have hm : (2 : Fin 3) ∈ d.startIndexMap := by rw [hsim]; exact List.mem_singleton.mpr rfl
    have hsl : d.sliceSizes 2 = 1 := d.slice_collapsed 2 (by rw [hcoll]; exact List.mem_singleton.mpr rfl)
    show d.start (ix3 a b p) idx (2 : Fin 3) + d.batchCoord (ix3 a b p) (2 : Fin 3) + d.offCoord (ix3 a b p) (2 : Fin 3)
      = min (idx (ixP p)).toInt.toNat (N - 1)
    rw [d.batchCoord_eq_zero _ _ (hb 2), d.offCoord_eq_zero _ _ hk]
    simp only [Nat.add_zero]
    unfold GatherDims.start
    rw [dif_pos hm]
    show min (idx _).toInt.toNat (N - d.sliceSizes 2) = min (idx (ixP p)).toInt.toNat (N - 1)
    rw [hsl]
    congr 3
    congr 1
    funext q
    match q with
    | ⟨0, _⟩ =>
      unfold GatherDims.siIdx
      rw [dif_neg (by rw [hivd]; simp)]
      unfold GatherDims.siCoord
      apply Fin.ext
      simp only [Fin.val_cast]
      rw [hbat _ (List.getElem_mem _)]
    | ⟨1, _⟩ =>
      unfold GatherDims.siIdx
      rw [dif_pos (by rw [hivd])]
      apply Fin.ext
      show List.idxOf (2 : Fin 3) d.startIndexMap = 0
      rw [hsim]; simp

/-- An and-reduction over the unit axis of an [n, 1] column of bits is the bit itself (and-ed with the initial bit). -/
theorem reduce_and_col {n : Nat} (h : (⟨2, ![n, 1]⟩ : Shape).ReducesTo [1] ⟨1, ![n]⟩) (hu : 0 < (⟨0, ![]⟩ : Shape).numel)
    (x : IVec ⟨2, ![n, 1]⟩ 1) (init : IVec ⟨0, ![]⟩ 1) (p : Fin n) :
    Host.reduce IntOp.andi x init h hu (ix1 p) = IntOp.andi (init ix0) (x (ixP p)) := by
  classical
  rw [Host.reduce_eq_fold]
  -- the one index of the column that drops to row p is (p, 0)
  have hdrop : ∀ i : (⟨2, ![n, 1]⟩ : Shape).Idx, h.drop i = ix1 p ↔ i = ixP p := by
    intro i
    have hv : (h.drop i 0 : Nat) = i 0 := Shape.ReducesTo.drop_apply_val h i 0
    constructor
    · intro e
      rw [e] at hv
      funext b
      match b with
      | ⟨0, _⟩ => exact Fin.ext hv.symm
      | ⟨1, _⟩ => exact Subsingleton.elim (α := Fin 1) _ _
    · intro e
      subst e
      funext b
      have hb : b = 0 := Subsingleton.elim (α := Fin 1) _ _
      subst hb
      exact Fin.ext hv
  have hset : (Finset.univ.filter fun i : (⟨2, ![n, 1]⟩ : Shape).Idx => h.drop i = ix1 p) = {ixP p} := by
    ext i
    simp only [Finset.mem_filter, Finset.mem_univ, true_and, Finset.mem_singleton]
    exact hdrop i
  rw [hset, Finset.fold_singleton, eq_ix0 (Shape.Idx.first hu)]
  exact Std.Commutative.comm _ _

end Cert.Tern

end
-- ==== Proof.KernelEntryX.lean ====
/-
  The gathered `x` and the bias row that the kernel region finds, read at an index: the take of `x`'s columns by `perm`
  (negative words wrapped, out-of-range positions filled) reads column `cp i` at a valid index, after `x` is flattened to
  rows b·512 + s; the bias is laid out as one row.
-/
import proofs.«404446_j87608742904344_1_alg».proof.Proof.KernelEntry
import proofs.«404446_j87608742904344_1_alg».proof.Proof.Words
import proofs.«404446_j87608742904344_1_alg».proof.Proof.Gather
import Idealize.ShloMosaic.Lib.StableHlo.Run
import Idealize.ShloMosaic.Lib.Pipeline.Value

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.Tern

variable (m : (ℓ : Loc nD τ sig) → Buf (Elt Ideal) ℓ)

/-! ## The host operations before the region, stretch by stretch -/

/-- The contents after two stretches of operations run in order are the second stretch's, from the first's. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- No operation before the bias's reshape writes the bias argument. -/
theorem pre9_arg5 (c : Dev nD) :
    StableHlo.after (List.flatten [hostOps0, hostOps0_1, hostOps0_2, hostOps0_3, hostOps0_4, hostOps0_5, hostOps0_6, hostOps0_7, hostOps0_8]) (fun b => m (c, b)) (Proc.devRef .tc main_arg5)
      = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The bias row the region finds is the bias argument, reshaped. -/
theorem entB_eq (c : Dev nD) :
    (V m c main_v9 : S1x4096.Idx → EReal) = shapeCast S1x4096 (argB m c) shapeCasts_S4096_S1x4096 := by
  show StableHlo.after (List.flatten ([hostOps0, hostOps0_1, hostOps0_2, hostOps0_3, hostOps0_4, hostOps0_5, hostOps0_6, hostOps0_7, hostOps0_8] ++ [hostOps0_9])) (fun b => m (c, b)) (Proc.devRef .tc main_v9) = _
  rw [List.flatten_append, after_append]
  have h5 := pre9_arg5 m c
  generalize StableHlo.after (List.flatten [hostOps0, hostOps0_1, hostOps0_2, hostOps0_3, hostOps0_4, hostOps0_5, hostOps0_6, hostOps0_7, hostOps0_8]) (fun b => m (c, b)) = G at h5 ⊢
  simp only [List.flatten_cons, List.flatten_nil, List.append_nil, hostOps0_9]
  after_results
  rw [h5]
  rfl

/-- No operation before the take writes `perm`. -/
theorem pre8_arg4 (c : Dev nD) :
    StableHlo.after (List.flatten [hostOps0, hostOps0_1, hostOps0_2, hostOps0_3, hostOps0_4, hostOps0_5, hostOps0_6, hostOps0_7]) (fun b => m (c, b)) (Proc.devRef .tc main_arg4)
      = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation between the reshape of `x` and the take writes the reshaped `x`. -/
theorem mid_v0 (W : Valuation τ sig (Elt Ideal)) :
    StableHlo.after (List.flatten [hostOps0_1, hostOps0_2, hostOps0_3, hostOps0_4, hostOps0_5, hostOps0_6, hostOps0_7]) W (Proc.devRef .tc main_v0)
      = W (Proc.devRef .tc main_v0) :=
  StableHlo.after_of_forall_not_mem (b := Proc.devRef .tc main_v0) _ _ (List.forall_iff_forall_mem.mp (by
    simp only [hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So the take finds `x` flattened to [1024, 4096]. -/
theorem pre8_v0 (c : Dev nD) :
    (StableHlo.after (List.flatten [hostOps0, hostOps0_1, hostOps0_2, hostOps0_3, hostOps0_4, hostOps0_5, hostOps0_6, hostOps0_7]) (fun b => m (c, b)) (Proc.devRef .tc main_v0) : S1024x4096.Idx → EReal)
      = shapeCast S1024x4096 (argX m c) shapeCasts_S2x512x4096_S1024x4096 := by
  show StableHlo.after (List.flatten ([hostOps0] ++ [hostOps0_1, hostOps0_2, hostOps0_3, hostOps0_4, hostOps0_5, hostOps0_6, hostOps0_7])) (fun b => m (c, b)) (Proc.devRef .tc main_v0) = _
  rw [List.flatten_append, after_append, mid_v0]
  simp only [List.flatten_cons, List.flatten_nil, List.append_nil, hostOps0]
  after_results
  rfl

/-! ## The take, read at an index -/

/-- The index words wrapped: a negative word has 4096 added. -/
def wrapVec (perm : IVec S4096 32) : IVec S4096 32 :=
  select (cmpi .slt perm (broadcastInDim S4096 ![] bcast_S_S4096 (constantI S_ 32 0#32)))
    (addi perm (broadcastInDim S4096 ![] bcast_S_S4096 (constantI S_ 32 4096#32))) perm

/-- The wrapped words as a [4096, 1] column of start indices. -/
def startCol (perm : IVec S4096 32) : IVec S4096x1 32 := broadcastInDim S4096x1 ![0] bcast_S4096_S4096x1_0 (wrapVec perm)

/-- The bounds test 0 ≤ v ≤ 4095 of each start index. -/
def inbCol (perm : IVec S4096 32) : IVec S4096x1 1 :=
  andi (cmpi .sge (startCol perm) (broadcastInDim S4096x1 ![] bcast_S_S4096x1 (constantI S_ 32 0#32)))
    (cmpi .sle (startCol perm) (broadcastInDim S4096x1 ![0, 1] bcast_S1x1_S4096x1_0_1
      (broadcastInDim S1x1 ![1] bcast_S1_S1x1_1 (constantI S1 32 4095#32))))

/-- The take of the columns of a [1024, 4096] array by 4096 index words: the columns gathered at the start indices, and
    every position whose start index fails the bounds test filled with a not-a-number. -/
def takeX (x0 : S1024x4096.Idx → EReal) (perm : IVec S4096 32) : S1024x4096.Idx → EReal :=
  select (broadcastInDim S1024x4096 ![1] bcast_S4096_S1024x4096_1
      (Host.reduce IntOp.andi (inbCol perm) (constantI S_ 1 1#1) reducesTo_S4096x1_S4096_d1 h_S_))
    (Host.gather gather_S1024x4096_S4096x1_S1024x4096_0_1_n_n_1_1_10241 x0 (startCol perm))
    (broadcastInDim S1024x4096 ![] bcast_S_S1024x4096 (constant (F := Ideal) S_ .f32 0x7FC00000#32))

/-- The start index of position `i` is `perm[i]` wrapped. -/
theorem startCol_apply (perm : IVec S4096 32) (i : Fin 4096) :
    startCol perm (StableHlo.Predicate.ixP i) = wrap (perm (ix1 i)) := by
  unfold startCol
  refine (StableHlo.Predicate.bcast_col1 bcast_S4096_S4096x1_0 (wrapVec perm) i).trans ?_
  have e : (Shape.Idx.ofFin i : S4096.Idx) = ix1 i := (Shape.Idx.eq_ofFin (ix1 i)).symm
  rw [e]
  rfl

/-- The bounds test at position `i` is the test of `perm[i]` wrapped. -/
theorem inbCol_apply (perm : IVec S4096 32) (i : Fin 4096) :
    inbCol perm (StableHlo.Predicate.ixP i) = inb (wrap (perm (ix1 i))) := by
  show IntOp.andi (IntOp.cmpi .sge (startCol perm (StableHlo.Predicate.ixP i)) 0#32)
      (IntOp.cmpi .sle (startCol perm (StableHlo.Predicate.ixP i)) 4095#32) = _
  rw [startCol_apply]
  rfl

/-- At a valid index word the bounds test passes, so the take reads column `cp perm i` of its operand. -/
theorem takeX_apply (x0 : S1024x4096.Idx → EReal) (perm : IVec S4096 32) (p : Fin 1024) (i : Fin 4096)
    (hv : Valid (perm (ix1 i))) : takeX x0 perm (ix2 p i) = x0 (ix2 p (cp perm i)) := by
  unfold takeX
  rw [select_apply]
  have hmask : broadcastInDim S1024x4096 ![1] bcast_S4096_S1024x4096_1
      (Host.reduce IntOp.andi (inbCol perm) (constantI S_ 1 1#1) reducesTo_S4096x1_S4096_d1 h_S_) (ix2 p i) = 1#1 := by
    refine (broadcastInDim_apply _ bcast_S4096_S1024x4096_1 _ (ix2 p i) (ix1 i) (fun a => match a with
      | ⟨0, _⟩ => by show i.val = if (4096 : Nat) = 1 then 0 else i.val; rw [if_neg (by decide)])).trans ?_
    rw [reduce_and_col, inbCol_apply, inb_wrap_of_valid hv]
    rfl
  rw [hmask, select_one]
  refine (gather_cols2 gather_S1024x4096_S4096x1_S1024x4096_0_1_n_n_1_1_10241 rfl rfl rfl rfl rfl x0 (startCol perm) p i (by decide)).trans ?_
  refine congrArg (fun q : Fin 4096 => x0 (ix2 p q)) (Fin.ext ?_)
  show min (startCol perm (StableHlo.Predicate.ixP i)).toInt.toNat (4096 - 1) = min (wrap (perm (ix1 i))).toInt.toNat 4095
  rw [startCol_apply]

/-- The gathered `x` the region finds is the take of `x`, flattened to [1024, 4096], by `perm`. -/
theorem entX_eq (c : Dev nD) :
    (V m c main_v8 : S1024x4096.Idx → EReal)
      = takeX (shapeCast S1024x4096 (argX m c) shapeCasts_S2x512x4096_S1024x4096) (argP m c) := by
  show StableHlo.after (List.flatten ([hostOps0, hostOps0_1, hostOps0_2, hostOps0_3, hostOps0_4, hostOps0_5, hostOps0_6, hostOps0_7] ++ [hostOps0_8, hostOps0_9])) (fun b => m (c, b)) (Proc.devRef .tc main_v8) = _
  rw [List.flatten_append, after_append]
  have h4 := pre8_arg4 m c
  have h0 := pre8_v0 m c
  generalize StableHlo.after (List.flatten [hostOps0, hostOps0_1, hostOps0_2, hostOps0_3, hostOps0_4, hostOps0_5, hostOps0_6, hostOps0_7]) (fun b => m (c, b)) = G at h4 h0 ⊢
  simp only [List.flatten_cons, List.flatten_nil, List.append_nil, hostOps0_8, hostOps0_9, List.cons_append, List.nil_append]
  after_results_simp
  rw [h4, h0]
  rfl

/-- The gathered `x`: row p = b·512 + s, column i, is `x[b, s, cp i]` when `perm[i]` is a valid index (the take's
    bounds test passes, so its fill value is not selected). -/
theorem entry_x (c : Dev nD) (p : Fin 1024) (i : Fin 4096) (hv : Valid (argP m c (ix1 i))) :
    entX m c (ix2 p i) = argX m c (ix3 ⟨p.val / 512, by omega⟩ ⟨p.val % 512, by omega⟩ (cp (argP m c) i)) := by
  show (V m c main_v8 : S1024x4096.Idx → EReal) (ix2 p i) = _
  rw [entX_eq, takeX_apply _ _ p i hv]
  exact shapeCast_apply (argX m c) shapeCasts_S2x512x4096_S1024x4096 (ix2 p (cp (argP m c) i))
    (ix3 ⟨p.val / 512, by omega⟩ ⟨p.val % 512, by omega⟩ (cp (argP m c) i))
    (by rewrite [Shape.rowMajor_val_two, Shape.rowMajor_val_three]
        show (p.val / 512 * 512 + p.val % 512) * 4096 + (cp (argP m c) i).val = p.val * 4096 + (cp (argP m c) i).val
        omega)

/-- The bias as a [1, 4096] row. -/
theorem entry_bias (c : Dev nD) (o : Fin 4096) : entB m c (ix2 (0 : Fin 1) o) = argB m c (ix1 o) := by
  show (V m c main_v9 : S1x4096.Idx → EReal) (ix2 (0 : Fin 1) o) = _
  rw [entB_eq]
  exact shapeCast_apply (argB m c) shapeCasts_S4096_S1x4096 (ix2 (0 : Fin 1) o) (ix1 o)
    (by rewrite [Shape.rowMajor_val_one, Shape.rowMajor_val_two]; show o.val = 0 * 4096 + o.val; omega)

end Cert.KernelIdeal.Entry

end
-- ==== Proof.KernelEntryW.lean ====
/-
  The gathered integer codes and the 0/1 matrix that the kernel region finds, read at an index: both are takes by the
  sorted positions, which are positions, so no fill value is selected; the 0/1 matrix compares the block number
  (position // 128) of the column read with the row number.
-/
import proofs.«404446_j87608742904344_1_alg».proof.Proof.KernelEntry
import proofs.«404446_j87608742904344_1_alg».proof.Proof.Words
import proofs.«404446_j87608742904344_1_alg».proof.Proof.Gather
import Idealize.ShloMosaic.Lib.StableHlo.Run
import Idealize.ShloMosaic.Lib.Pipeline.Value

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.Tern

variable (m : (ℓ : Loc nD τ sig) → Buf (Elt Ideal) ℓ)

namespace EntW

open Idealize.ShloMosaic.StableHlo Idealize.ShloMosaic.StableHlo.Predicate

/-! ## The host operations as functions of whole vectors -/

/-- jnp's reading of possibly negative positions, on the whole vector. -/
def wrapV (ip : IVec S4096 32) : IVec S4096 32 :=
  select (cmpi .slt ip (broadcastInDim S4096 ![] bcast_S_S4096 (constantI S_ 32 0#32)))
    (addi ip (broadcastInDim S4096 ![] bcast_S_S4096 (constantI S_ 32 4096#32))) ip

/-- The start indices of the takes: the positions, read jnp's way, as a column. -/
def idxV (ip : IVec S4096 32) : IVec S4096x1 32 := broadcastInDim S4096x1 ![0] bcast_S4096_S4096x1_0 (wrapV ip)

/-- The takes' bounds test, one bit per position. -/
def okV (ip : IVec S4096 32) : IVec S4096 1 :=
  Host.reduce IntOp.andi
    (andi (cmpi .sge (idxV ip) (broadcastInDim S4096x1 ![] bcast_S_S4096x1 (constantI S_ 32 0#32)))
      (cmpi .sle (idxV ip) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The take of the codes' columns: the gathered columns where the bounds test passes, a fill word elsewhere. -/
def takeT (T : IVec S4096x4096 32) (ip : IVec S4096 32) : IVec S4096x4096 32 :=
  select (broadcastInDim S4096x4096 ![1] bcast_S4096_S4096x4096_1 (okV ip))
    (Host.gather gather_S4096x4096_S4096x1_S4096x4096_0_1_n_n_1_1_40961 T (idxV ip))
    (broadcastInDim S4096x4096 ![] bcast_S_S4096x4096 (constantI S_ 32 2147483648#32))

/-- The take of a vector's entries. -/
def take1 (x : IVec S4096 32) (ip : IVec S4096 32) : IVec S4096 32 :=
  select (okV ip) (Host.gather gather_S4096_S4096x1_S4096_n_0_n_n_0_1_1 x (idxV ip))
    (broadcastInDim S4096 ![] bcast_S_S4096 (constantI S_ 32 2147483648#32))

/-- jnp's floor division of a vector by a scalar, as printed. -/
def fdivV (x : IVec S4096 32) (k : IVec S_ 32) : IVec S4096 32 :=
  select
    (andi (cmpi .ne (signi x) (broadcastInDim S4096 ![] bcast_S_S4096 (signi k)))
      (cmpi .ne (Host.remsi x (broadcastInDim S4096 ![] bcast_S_S4096 k)) (broadcastInDim S4096 ![] bcast_S_S4096 (constantI S_ 32 0#32))))
    (subi (Host.divsi x (broadcastInDim S4096 ![] bcast_S_S4096 k)) (broadcastInDim S4096 ![] bcast_S_S4096 (constantI S_ 32 1#32)))
    (Host.divsi x (broadcastInDim S4096 ![] bcast_S_S4096 k))

/-- The transposed one_hot of a vector of block numbers against the row numbers 0, …, 31. -/
def ohV (q : IVec S4096 32) : S32x4096.Idx → EReal :=
  transpose S32x4096 [1, 0]
    (uitofp (F := Ideal) .f32 (cmpi .eq
      (broadcastInDim S4096x32 ![0, 1] bcast_S4096x1_S4096x32_0_1 (broadcastInDim S4096x1 ![0] bcast_S4096_S4096x1_0 q))
      (broadcastInDim S4096x32 ![0, 1] bcast_S1x32_S4096x32_0_1 (iotaInDim S1x32 32 1))))
    transposes_S4096x32_S32x4096_1_0

/-! ## What each stretch of host operations leaves, from any contents -/

theorem V0_split (c : Dev nD) : Gen.V0 m c =
    after hostOps0_9 (after hostOps0_8 (after hostOps0_7 (after hostOps0_6 (after hostOps0_5 (after hostOps0_4
      (after hostOps0_3 (after hostOps0_2 (after hostOps0_1 (after hostOps0 (fun b => m (c, b))))))))))) := by
  dsimp only [Gen.V0]
  simp only [List.flatten_cons, List.flatten_nil, List.append_nil, StableHlo.after_append]

/-- The sort's second result is the positions sorted by the entries. -/
theorem argsort_eq (perm : IVec S4096 32) :
    (Host.sort2 S4096 0 comparator_i32_i32_d0 perm (iotaInDim S4096 32 0)).2 = argsort perm := by
  unfold argsort comparator_i32_i32_d0
  rfl

theorem st1 (W : Valuation τ sig (Elt Ideal)) :
    (after hostOps0_1 W (Proc.devRef .tc main_v1) : IVec S4096 32) = argsort (W (Proc.devRef .tc main_arg4)) := by
  simp only [Gen.hostOps0_1]
  after_results_simp
  exact argsort_eq _

theorem thru_arg4 (W : Valuation τ sig (Elt Ideal)) :
    after hostOps0 W (Proc.devRef .tc main_arg4) = W (Proc.devRef .tc main_arg4) := by
  simp only [Gen.hostOps0]
  after_results_simp

theorem thru_v1 (W : Valuation τ sig (Elt Ideal)) :
    after hostOps0_6 (after hostOps0_5 (after hostOps0_4 (after hostOps0_3 (after hostOps0_2 W)))) (Proc.devRef .tc main_v1)
      = W (Proc.devRef .tc main_v1) := by
  simp only [Gen.hostOps0_2, Gen.hostOps0_3, Gen.hostOps0_4, Gen.hostOps0_5, Gen.hostOps0_6]
  after_results_simp

theorem st7 (W : Valuation τ sig (Elt Ideal)) :
    (after hostOps0_7 W (Proc.devRef .tc main_v7) : IVec S4096x4096 32)
      = takeT (W (Proc.devRef .tc main_arg1)) (W (Proc.devRef .tc main_v1)) := by
  simp only [Gen.hostOps0_7]
  after_results_simp
  rfl

theorem thru_v7 (W : Valuation τ sig (Elt Ideal)) :
    after hostOps0_9 (after hostOps0_8 W) (Proc.devRef .tc main_v7) = W (Proc.devRef .tc main_v7) := by
  simp only [Gen.hostOps0_8, Gen.hostOps0_9]
  after_results_simp

theorem thru_arg1 (W : Valuation τ sig (Elt Ideal)) :
    after hostOps0_6 (after hostOps0_5 (after hostOps0_4 (after hostOps0_3 (after hostOps0_2 (after hostOps0_1 (after hostOps0 W))))))
      (Proc.devRef .tc main_arg1) = W (Proc.devRef .tc main_arg1) := by
  simp only [Gen.hostOps0, Gen.hostOps0_1, Gen.hostOps0_2, Gen.hostOps0_3, Gen.hostOps0_4, Gen.hostOps0_5, Gen.hostOps0_6]
  after_results_simp

theorem thru_v6 (W : Valuation τ sig (Elt Ideal)) :
    after hostOps0_9 (after hostOps0_8 (after hostOps0_7 W)) (Proc.devRef .tc main_v6) = W (Proc.devRef .tc main_v6) := by
  simp only [Gen.hostOps0_7, Gen.hostOps0_8, Gen.hostOps0_9]
  after_results_simp

theorem thru_v1' (W : Valuation τ sig (Elt Ideal)) :
    after hostOps0_3 (after hostOps0_2 W) (Proc.devRef .tc main_v1) = W (Proc.devRef .tc main_v1) := by
  simp only [Gen.hostOps0_2, Gen.hostOps0_3]
  after_results_simp

theorem st56 (W : Valuation τ sig (Elt Ideal)) :
    (after hostOps0_6 (after hostOps0_5 W) (Proc.devRef .tc main_v6) : S32x4096.Idx → EReal) = ohV (W (Proc.devRef .tc main_v4)) := by
  simp only [Gen.hostOps0_5, Gen.hostOps0_6]
  after_results_simp
  rfl

theorem st4 (W : Valuation τ sig (Elt Ideal)) :
    (after hostOps0_4 W (Proc.devRef .tc main_v4) : IVec S4096 32)
      = take1 (W (Proc.devRef .tc main_v3)) (W (Proc.devRef .tc main_v1)) := by
  simp only [Gen.hostOps0_4]
  after_results_simp
  rfl

theorem st23 (W : Valuation τ sig (Elt Ideal)) :
    (after hostOps0_3 (after hostOps0_2 W) (Proc.devRef .tc main_v3) : IVec S4096 32)
      = fdivV (iotaInDim S4096 32 0) (constantI S_ 32 128#32) := by
  simp only [Gen.hostOps0_2, Gen.hostOps0_3]
  after_results_simp
  rfl

/-- The gathered codes as a function of the arguments. -/
theorem V_v7 (c : Dev nD) : (V m c main_v7 : IVec S4096x4096 32) = takeT (argT m c) (argsort (argP m c)) := by
  show Gen.V0 m c (Proc.devRef .tc main_v7) = _
  rw [V0_split, thru_v7, st7, thru_arg1, thru_v1, st1, thru_arg4]

/-- The 0/1 matrix as a function of the arguments. -/
theorem V_v6 (c : Dev nD) : (V m c main_v6 : S32x4096.Idx → EReal)
    = ohV (take1 (fdivV (iotaInDim S4096 32 0) (constantI S_ 32 128#32)) (argsort (argP m c))) := by
  show Gen.V0 m c (Proc.devRef .tc main_v6) = _
  rw [V0_split, thru_v6, st56, st4, st23, thru_v1', st1, thru_arg4]

/-! ## The vectors read at an index -/

theorem ofFin_eq_ix1 {n : Nat} (p : Fin n) : Shape.Idx.ofFin p = ix1 p := by
  funext d; match d with | ⟨0, _⟩ => rfl

theorem ij_eq_ix2 {n k : Nat} (p : Fin n) (q : Fin k) : ij p q = ix2 p q := by
  funext d; match d with | ⟨0, _⟩ => rfl | ⟨1, _⟩ => rfl

/-- A vector laid along the second axis of a rectangle reads, at (r, p), the vector at p. -/
theorem bcast_row_apply {α : Type} {R n : Nat} (h : (⟨1, ![n]⟩ : Shape).BroadcastsInDim ⟨2, ![R, n]⟩ ![1])
    (v : (⟨1, ![n]⟩ : Shape).Idx → α) (r : Fin R) (p : Fin n) :
    broadcastInDim ⟨2, ![R, n]⟩ ![1] h v (ix2 r p) = v (ix1 p) := by
  unfold broadcastInDim
  refine congrArg v (funext fun a => Fin.ext ?_)
  have ha : a = 0 := Subsingleton.elim _ _
  subst ha
  have hp := p.isLt
  split
  · next h1 => change n = 1 at h1; show (0 : Nat) = p.val; omega
  · rfl

theorem wrapV_apply (ip : IVec S4096 32) (i : Fin 4096) : wrapV ip (ix1 i) = wrap (ip (ix1 i)) := rfl

theorem idxV_apply (ip : IVec S4096 32) (i : Fin 4096) : idxV ip (ixP i) = wrap (ip (ix1 i)) := by
  unfold idxV
  refine (bcast_col1 bcast_S4096_S4096x1_0 (wrapV ip) i).trans ?_
  rw [ofFin_eq_ix1]
  exact wrapV_apply ip i

theorem andi_one_left (b : BitVec 1) : IntOp.andi 1#1 b = b := by revert b; decide

theorem okV_apply (ip : IVec S4096 32) (i : Fin 4096) : okV ip (ix1 i) = inb (wrap (ip (ix1 i))) := by
  unfold okV
  refine (reduce_and_col reducesTo_S4096x1_S4096_d1 h_S_ _ _ i).trans ?_
  refine (andi_one_left _).trans ?_
  show IntOp.andi (IntOp.cmpi .sge (idxV ip (ixP i)) 0#32) (IntOp.cmpi .sle (idxV ip (ixP i)) 4095#32) = _
  rw [idxV_apply]
  rfl

/-- Where the bounds test passes, the take of the codes reads the column the start word names. -/
theorem takeT_apply (T : IVec S4096x4096 32) (ip : IVec S4096 32) (o i : Fin 4096) (hin : inb (wrap (ip (ix1 i))) = 1#1) :
    takeT T ip (ix2 o i) = T (ix2 o (col (wrap (ip (ix1 i))))) := by
  unfold takeT
  rw [select_apply, bcast_row_apply, okV_apply, hin, select_one]
  refine (gather_cols2 gather_S4096x4096_S4096x1_S4096x4096_0_1_n_n_1_1_40961 rfl rfl rfl rfl rfl T (idxV ip) o i (by decide)).trans ?_
  exact congrArg (fun v => T (ix2 o (col v))) (idxV_apply ip i)

/-- Where the bounds test passes, the take of a vector reads the entry the start word names. -/
theorem take1_apply (x ip : IVec S4096 32) (i : Fin 4096) (hin : inb (wrap (ip (ix1 i))) = 1#1) :
    take1 x ip (ix1 i) = x (ix1 (col (wrap (ip (ix1 i))))) := by
  unfold take1
  rw [select_apply, okV_apply, hin, select_one]
  refine (congrArg (Host.gather gather_S4096_S4096x1_S4096_n_0_n_n_0_1_1 x (idxV ip)) (ofFin_eq_ix1 i).symm).trans ?_
  refine (gather_take gather_S4096_S4096x1_S4096_n_0_n_n_0_1_1 rfl rfl rfl rfl x (idxV ip) i (by decide)).trans ?_
  rw [ofFin_eq_ix1]
  exact congrArg (fun v => x (ix1 (col v))) (idxV_apply ip i)

/-- The floor division of the positions by 128, at position j. -/
theorem fdivV_apply (j : Fin 4096) :
    fdivV (iotaInDim S4096 32 0) (constantI S_ 32 128#32) (ix1 j) = fdiv128 (BitVec.ofNat 32 j.val) := rfl

/-- Row b, column i of the 0/1 matrix: whether the i-th block number is b, as a real. -/
theorem ohV_apply (q : IVec S4096 32) (b : Fin 32) (i : Fin 4096) :
    ohV q (ix2 b i) = (((IntOp.cmpi .eq (q (ix1 i)) (BitVec.ofNat 32 b.val)).toNat : ℝ) : EReal) := by
  unfold ohV
  refine (transpose_apply [1, 0] _ transposes_S4096x32_S32x4096_1_0 (ix2 b i) (ix2 i b)
    (fun a => match a with | ⟨0, _⟩ => rfl | ⟨1, _⟩ => rfl)).trans ?_
  show (((IntOp.cmpi .eq
      (broadcastInDim S4096x32 ![0, 1] bcast_S4096x1_S4096x32_0_1 (broadcastInDim S4096x1 ![0] bcast_S4096_S4096x1_0 q) (ix2 i b))
      (broadcastInDim S4096x32 ![0, 1] bcast_S1x32_S4096x32_0_1 (iotaInDim S1x32 32 1) (ix2 i b))).toNat : ℝ) : EReal) = _
  rw [← ij_eq_ix2, bcast_of_col, bcast_col1, bcast_of_row, ofFin_eq_ix1]
  rfl

end EntW

/-- The gathered codes: column i is column `cq i` (the sorted positions are positions, so the bounds test passes). -/
theorem entry_T (c : Dev nD) (o i : Fin 4096) : entT m c (ix2 o i) = argT m c (ix2 o (cq (argP m c) i)) := by
  unfold cq
  exact (congrFun (EntW.V_v7 m c) (ix2 o i)).trans
    (EntW.takeT_apply (argT m c) (argsort (argP m c)) o i (inb_wrap_argsort (argP m c) i))

/-- The 0/1 matrix: row b, column i is 1 when column `cq i` lies in block b, else 0. -/
theorem entry_onehot (c : Dev nD) (b : Fin 32) (i : Fin 4096) :
    entOH m c (ix2 b i) = if blk (cq (argP m c) i) = b then 1 else 0 := by
  unfold cq
  have hin := inb_wrap_argsort (argP m c) i
  refine (congrFun (EntW.V_v6 m c) (ix2 b i)).trans ?_
  rw [EntW.ohV_apply, EntW.take1_apply _ _ i hin, EntW.fdivV_apply]
  generalize col (wrap (argsort (argP m c) (ix1 i))) = q
  have hq := q.isLt
  rw [fdiv128_ofNat q.val hq, onehot_ofNat (q.val / 128) (by omega) b]
  by_cases h : q.val / 128 = b.val
  · rw [if_pos h, if_pos (Fin.ext h)]
  · rw [if_neg h, if_neg (fun e => h (congrArg Fin.val e))]

end Cert.KernelIdeal.Entry

end
-- ==== Proof.KernelPieces.lean ====
/-
  What each control case of the kernel body leaves in the accumulator scratch and in the output's staging buffer, as the
  body's stored values of the blocks it loads: at a run's first point the update over the freshly stored zero; at the
  other points the update over what the point before left; at a run's last point, besides, the write-back of that.
-/
import proofs.«404446_j87608742904344_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

/-- The origin of a rank-two block, as the constant-zero index function. -/
theorem origin_const : (![0, 0] : Fin 2 → Nat) = fun _ => 0 := funext fun a => by fin_cases a <;> rfl

/-- A run's first point: the scratch ends at the update over the zero just stored. -/
theorem scratch_A (c : Dev nD) (i : grid0.Coords) (arg2 : Memref sig .tc .vmem S1024x512 .f32) (harg2 : arg2.IsWhole) (arg3 : Memref sig .tc .vmem S1024x512 .i32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S32x512 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S1024x512 .i32) (x2 : Vec F S1024x32 .f32) (x3 : Vec F S1024x32 .f32) (x4 : Vec F S32x512 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay2 x2 x3 x4 x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x1024) origin_const, View.readCov_unit_zero (S := S1024x1024) _ origin_const]
  simp only [View.readAt_eq_ld, harg2.read_unread, harg3.read_unread, harg4.read_unread, harg5.read_unread,
    harg6.read_unread, View.ld_unit_zero (S := S1024x512) origin_const, View.ld_unit_zero (S := S1024x32) origin_const,
    View.ld_unit_zero (S := S32x512) origin_const]

/-- A middle point: the update over what the point before left. -/
theorem scratch_B (c : Dev nD) (i : grid0.Coords) (arg2 : Memref sig .tc .vmem S1024x512 .f32) (harg2 : arg2.IsWhole) (arg3 : Memref sig .tc .vmem S1024x512 .i32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S32x512 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S1024x512 .i32) (x2 : Vec F S1024x32 .f32) (x3 : Vec F S1024x32 .f32) (x4 : Vec F S32x512 .f32) (x5 : Vec F S1x1024 .f32) (xs0 : Vec F S1024x1024 .f32) :
    sout0_B_0 c i arg2 harg2 arg3 harg3 arg4 harg4 arg5 harg5 arg6 harg6 arg7 harg7 arg8 harg8 arg9 harg9 hc0 hc1 x0 x1 x2 x3 x4 x5 xs0 = k0_pay2 x2 x3 x4 x1 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S1024x1024) origin_const]
  simp only [View.readAt_eq_ld, harg2.read_unread, harg3.read_unread, harg4.read_unread, harg5.read_unread,
    harg6.read_unread, harg9.read_unread, View.ld_unit_zero (S := S1024x512) origin_const, View.ld_unit_zero (S := S1024x32) origin_const,
    View.ld_unit_zero (S := S32x512) origin_const, View.ld_unit_zero (S := S1024x1024) origin_const]

/-- A run's last point: the scratch as at a middle point, -/
theorem scratch_C (c : Dev nD) (i : grid0.Coords) (arg2 : Memref sig .tc .vmem S1024x512 .f32) (harg2 : arg2.IsWhole) (arg3 : Memref sig .tc .vmem S1024x512 .i32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S32x512 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x32 .f32) (x3 : Vec F S1024x32 .f32) (x4 : Vec F S32x512 .f32) (x5 : Vec F S1x1024 .f32) (xs0 : Vec F S1024x1024 .f32) :
    sout0_C_0 c i arg2 harg2 arg3 harg3 arg4 harg4 arg5 harg5 arg6 harg6 arg7 harg7 arg8 harg8 arg9 harg9 hc0 hc1 x0 x1 x2 x3 x4 x5 xs0 = k0_pay2 x2 x3 x4 x1 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1024x1024) origin_const]
  simp only [View.readAt_eq_ld, harg2.read_unread, harg3.read_unread, harg4.read_unread, harg5.read_unread,
    harg6.read_unread, harg9.read_unread, View.ld_unit_zero (S := S1024x512) origin_const, View.ld_unit_zero (S := S1024x32) origin_const,
    View.ld_unit_zero (S := S32x512) origin_const, View.ld_unit_zero (S := S1024x1024) origin_const]

/-- and the output's staging buffer at the write-back of it. -/
theorem out_C (c : Dev nD) (i : grid0.Coords) (arg2 : Memref sig .tc .vmem S1024x512 .f32) (harg2 : arg2.IsWhole) (arg3 : Memref sig .tc .vmem S1024x512 .i32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S32x512 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x32 .f32) (x3 : Vec F S1024x32 .f32) (x4 : Vec F S32x512 .f32) (x5 : Vec F S1x1024 .f32) (xs0 : Vec F S1024x1024 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x2 x3 x4 x1 x0 xs0) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1024x1024) origin_const, View.readCov_unit_zero (S := S1024x1024) _ origin_const]
  simp only [View.readAt_eq_ld, harg2.read_unread, harg3.read_unread, harg4.read_unread, harg5.read_unread,
    harg6.read_unread, harg7.read_unread, harg9.read_unread, View.ld_unit_zero (S := S1024x512) origin_const,
    View.ld_unit_zero (S := S1024x32) origin_const, View.ld_unit_zero (S := S32x512) origin_const, View.ld_unit_zero (S := S1x1024) origin_const,
    View.ld_unit_zero (S := S1024x1024) origin_const]

end Cert.KernelIdeal.Pieces

end
-- ==== Proof.KernelPayload.lean ====
/-
  The kernel body's three stored values, read at an index on the extended reals: the reset stores zero; the update
  stores the accumulator plus, over the block's 512 columns, the product of the `x` block with the weight block (scales
  and offsets selected by the 0/1 block, around the integer code); the write-back stores the accumulator plus the bias
  row.
-/
import proofs.«404446_j87608742904344_1_alg».proof.Proof.Gen.KernelIdeal.Skeleton
import proofs.«404446_j87608742904344_1_alg».proof.Proof.Spec
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-! ## The two matrix products at an index

  The block products contract one axis of each operand. At an output index (r, c) and contraction position k the
  scale-selecting product reads its left operand at (r, k) and its right operand at (k, c); the outer product reads its
  left operand at (r, k) and its right operand at (c, k). -/

theorem lhsA_0 (i : S1024x512.Idx) (q : dot_S1024x32_S32x512_S1024x512_1_0_0_1_n_n.contr.Idx) :
    (dot_S1024x32_S32x512_S1024x512_1_0_0_1_n_n.lhsIdx i q 0).val = (i 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
theorem lhsA_1 (i : S1024x512.Idx) (q : dot_S1024x32_S32x512_S1024x512_1_0_0_1_n_n.contr.Idx) :
    (dot_S1024x32_S32x512_S1024x512_1_0_0_1_n_n.lhsIdx i q 1).val = (q ⟨0, by decide⟩).val :=
  dot_S1024x32_S32x512_S1024x512_1_0_0_1_n_n.lhsIdx_val_of_single rfl i q
theorem rhsA_0 (i : S1024x512.Idx) (q : dot_S1024x32_S32x512_S1024x512_1_0_0_1_n_n.contr.Idx) :
    (dot_S1024x32_S32x512_S1024x512_1_0_0_1_n_n.rhsIdx i q 0).val = (q ⟨0, by decide⟩).val :=
  dot_S1024x32_S32x512_S1024x512_1_0_0_1_n_n.rhsIdx_val_of_single rfl i q
theorem rhsA_1 (i : S1024x512.Idx) (q : dot_S1024x32_S32x512_S1024x512_1_0_0_1_n_n.contr.Idx) :
    (dot_S1024x32_S32x512_S1024x512_1_0_0_1_n_n.rhsIdx i q 1).val = (i 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl

/-- The [1024, 32] × [32, 512] product into the zero constant, at (r, c): the sum over the 32 contracted positions. -/
theorem mmA_apply {φ₁ φ₂ : FTy} (l : FVec Ideal S1024x32 φ₁) (r : FVec Ideal S32x512 φ₂) (rr : Fin 1024) (c : Fin 512) :
    matmul dot_S1024x32_S32x512_S1024x512_1_0_0_1_n_n none l r (constant (F := Ideal) S1024x512 .f32 0x00000000#32) (ix2 rr c)
      = ∑ b : Fin 32, l (ix2 rr b) * r (ix2 b c) := by
  simp only [matmul]
  rw [Ideal.matmul_constant_zero_apply, ← Equiv.sum_comp (ValueIdx.contrEquiv1 dot_S1024x32_S32x512_S1024x512_1_0_0_1_n_n 32 rfl rfl).symm]
  refine Finset.sum_congr rfl fun k _ => ?_
  have hk := ValueIdx.contrEquiv1_symm_val dot_S1024x32_S32x512_S1024x512_1_0_0_1_n_n 32 rfl rfl k
  have el : dot_S1024x32_S32x512_S1024x512_1_0_0_1_n_n.lhsIdx (ix2 rr c) ((ValueIdx.contrEquiv1 dot_S1024x32_S32x512_S1024x512_1_0_0_1_n_n 32 rfl rfl).symm k) = ix2 rr k := funext fun a => Fin.ext (by
    match a with
    | ⟨0, _⟩ => exact lhsA_0 _ _
    | ⟨1, _⟩ => exact (lhsA_1 _ _).trans hk)
  have er : dot_S1024x32_S32x512_S1024x512_1_0_0_1_n_n.rhsIdx (ix2 rr c) ((ValueIdx.contrEquiv1 dot_S1024x32_S32x512_S1024x512_1_0_0_1_n_n 32 rfl rfl).symm k) = ix2 k c := funext fun a => Fin.ext (by
    match a with
    | ⟨0, _⟩ => exact (rhsA_0 _ _).trans hk
    | ⟨1, _⟩ => exact rhsA_1 _ _)
  rw [el, er]

theorem lhsB_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhsB_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhsB_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhsB_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The [1024, 512] × [1024, 512] product (both operands contracted along their columns) into the zero constant, at
    (r, c): the sum over the 512 contracted positions. -/
theorem mmB_apply {φ₁ φ₂ : FTy} (l : FVec Ideal S1024x512 φ₁) (r : FVec Ideal S1024x512 φ₂) (rr c : Fin 1024) :
    matmul dot_S1024x512_S1024x512_S1024x1024_1_1_0_0_n_n none l r (constant (F := Ideal) S1024x1024 .f32 0x00000000#32) (ix2 rr c)
      = ∑ j : Fin 512, l (ix2 rr j) * r (ix2 c j) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 rr c) ((ValueIdx.contrEquiv1 dot_S1024x512_S1024x512_S1024x1024_1_1_0_0_n_n 512 rfl rfl).symm k) = ix2 rr k := funext fun a => Fin.ext (by
    match a with
    | ⟨0, _⟩ => exact lhsB_0 _ _
    | ⟨1, _⟩ => exact (lhsB_1 _ _).trans hk)
  have er : dot_S1024x512_S1024x512_S1024x1024_1_1_0_0_n_n.rhsIdx (ix2 rr c) ((ValueIdx.contrEquiv1 dot_S1024x512_S1024x512_S1024x1024_1_1_0_0_n_n 512 rfl rfl).symm k) = ix2 c k := funext fun a => Fin.ext (by
    match a with
    | ⟨0, _⟩ => exact rhsB_0 _ _
    | ⟨1, _⟩ => exact (rhsB_1 _ _).trans hk)
  rw [el, er]

/-! ## The three stored values -/

/-- The reset's value: zero everywhere. -/
theorem pay1_apply (y : S1024x1024.Idx) : (k0_pay1 (F := Ideal)) y = 0 := by
  unfold k0_pay1
  simp only [shapeCast_self]
  exact Ideal.ofBits_zero_f32

/-- The update's value at (p, q). -/
theorem pay2_apply (a mu : Vec Ideal S1024x32 .f32) (oh : Vec Ideal S32x512 .f32) (tp : Vec Ideal S1024x512 .i32)
    (x : Vec Ideal S1024x512 .f32) (acc : Vec Ideal S1024x1024 .f32) (p q : Fin 1024) :
    k0_pay2 a mu oh tp x acc (ix2 p q)
      = acc (ix2 p q) + ∑ j : Fin 512, x (ix2 p j)
          * ((∑ b : Fin 32, a (ix2 q b) * oh (ix2 b j)) * (((tp (ix2 q j)).toInt : ℝ) : EReal) + ∑ b : Fin 32, mu (ix2 q b) * oh (ix2 b j)) := by
  unfold k0_pay2
  simp only [shapeCast_self]
  refine (addf_apply _ _ _).trans ?_
  refine congrArg (acc (ix2 p q) + ·) ?_
  refine (mmB_apply _ _ p q).trans ?_
  refine Finset.sum_congr rfl fun j _ => ?_
  refine congrArg (x (ix2 p j) * ·) ?_
  refine (addf_apply _ _ _).trans ?_
  refine congrArg₂ (· + ·) ?_ (mmA_apply _ _ q j)
  refine (mulf_apply _ _ _).trans ?_
  exact congrArg₂ (· * ·) (mmA_apply _ _ q j) rfl

/-- The write-back's value at (p, q). -/
theorem pay3_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  simp only [shapeCast_self]
  exact congrArg (acc (ix2 p q) + ·) (broadcastTo_1b_ab_apply bias broadcasts_S1x1024_S1024x1024 p q)

end Cert.KernelIdeal.Payload

end
-- ==== Proof.KernelBlocks.lean ====
/-
  The blocks the pipeline stages at grid point t = oi·8 + k, read at an index of the arrays the region finds: the `x`
  block is columns k·512 … of all 1024 rows; the code block rows oi·1024 … and columns k·512 …; the scale and offset
  blocks rows oi·1024 …; the 0/1 block columns k·512 …; the bias block columns oi·1024 … of its one row. (A block's
  coordinate is always block index × block size + the coordinate inside the block.)
-/
import proofs.«404446_j87608742904344_1_alg».proof.Proof.Gen.KernelIdeal.Frame
import proofs.«404446_j87608742904344_1_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Tern

variable {F : FTy → Type} [FloatOps F]
variable (m : (ℓ : Loc nD τ sig) → Buf (Elt F) ℓ)

/-- The band of output rows and the run of columns that point `t` works on. -/
def band (t : Fin cfg0.N) : Fin 4 := ⟨t.val / 8, by have := t.isLt; have : cfg0.N = 32 := N_0; omega⟩
def run (t : Fin cfg0.N) : Fin 8 := ⟨t.val % 8, by omega⟩

/-- The staged blocks and the region's arrays, typed by their literal shapes. -/
abbrev bX (c : Dev nD) (t : Fin cfg0.N) : Vec F S1024x512 .f32 := iblk m c 0 t
abbrev bT (c : Dev nD) (t : Fin cfg0.N) : Vec F S1024x512 .i32 := iblk m c 1 t
abbrev bA (c : Dev nD) (t : Fin cfg0.N) : Vec F S1024x32 .f32 := iblk m c 2 t
abbrev bM (c : Dev nD) (t : Fin cfg0.N) : Vec F S1024x32 .f32 := iblk m c 3 t
abbrev bOH (c : Dev nD) (t : Fin cfg0.N) : Vec F S32x512 .f32 := iblk m c 4 t
abbrev bB (c : Dev nD) (t : Fin cfg0.N) : Vec F S1x1024 .f32 := iblk m c 5 t
abbrev aX (c : Dev nD) : Vec F S1024x4096 .f32 := V m c main_v8
abbrev aT (c : Dev nD) : Vec F S4096x4096 .i32 := V m c main_v7
abbrev aA (c : Dev nD) : Vec F S4096x32 .f32 := V m c main_arg2
abbrev aM (c : Dev nD) : Vec F S4096x32 .f32 := V m c main_arg3
abbrev aOH (c : Dev nD) : Vec F S32x4096 .f32 := V m c main_v6
abbrev aB (c : Dev nD) : Vec F S1x4096 .f32 := V m c main_v9

/-! ## The index maps over the grid

Point `t = oi·8 + k` of the 4 × 8 grid has band `oi = t / 8` and run `k = t % 8`; each window's block index at `t`
is, per axis, one of `0`, the band, or the run. -/

/-- The `x` window: all rows, the run's columns. -/
theorem idx_x : ∀ t : Fin cfg0.N, win0_0.index t (0 : Fin 2) = 0 ∧ win0_0.index t (1 : Fin 2) = t.val % 8 :=
  (by decide +kernel : ∀ t : Fin grid0.N, _)

/-- The code window: the band's rows, the run's columns. -/
theorem idx_T : ∀ t : Fin cfg0.N, win0_1.index t (0 : Fin 2) = t.val / 8 ∧ win0_1.index t (1 : Fin 2) = t.val % 8 :=
  (by decide +kernel : ∀ t : Fin grid0.N, _)

/-- The scale window: the band's rows, all 32 columns. -/
theorem idx_alpha : ∀ t : Fin cfg0.N, win0_2.index t (0 : Fin 2) = t.val / 8 ∧ win0_2.index t (1 : Fin 2) = 0 :=
  (by decide +kernel : ∀ t : Fin grid0.N, _)

/-- The offset window: the band's rows, all 32 columns. -/
theorem idx_mu : ∀ t : Fin cfg0.N, win0_3.index t (0 : Fin 2) = t.val / 8 ∧ win0_3.index t (1 : Fin 2) = 0 :=
  (by decide +kernel : ∀ t : Fin grid0.N, _)

/-- The 0/1 window: all 32 rows, the run's columns. -/
theorem idx_onehot : ∀ t : Fin cfg0.N, win0_4.index t (0 : Fin 2) = 0 ∧ win0_4.index t (1 : Fin 2) = t.val % 8 :=
  (by decide +kernel : ∀ t : Fin grid0.N, _)

/-- The bias window: its one row, the band's columns. -/
theorem idx_bias : ∀ t : Fin cfg0.N, win0_5.index t (0 : Fin 2) = 0 ∧ win0_5.index t (1 : Fin 2) = t.val / 8 :=
  (by decide +kernel : ∀ t : Fin grid0.N, _)

/-! ## Each block read at an index

A block's element sits in its array, on each axis, at the block index times the block's extent plus the coordinate
inside the block; with the index facts above that is the row `rowOf` or the column `colOf` names. -/

theorem blk_x (c : Dev nD) (t : Fin cfg0.N) (p : Fin 1024) (j : Fin 512) :
    bX m c t (ix2 p j) = aX m c (ix2 p (colOf (run t) j)) := by
  have hi := idx_x t
  show iblk m c 0 t (ix2 p j) = V m c main_v8 (ix2 p (colOf (run t) j))
  unfold iblk
  rw [View.read_apply]
  show V m c main_v8 _ = V m c main_v8 _
  congr 1
  funext a
  apply Fin.ext
  match a with
  | ⟨0, _⟩ => show win0_0.index t 0 * 1024 + 1 * p.val = p.val; rw [hi.1]; omega
  | ⟨1, _⟩ => show win0_0.index t 1 * 512 + 1 * j.val = (t.val % 8) * 512 + j.val; rw [hi.2]; omega

theorem blk_T (c : Dev nD) (t : Fin cfg0.N) (q : Fin 1024) (j : Fin 512) :
    bT m c t (ix2 q j) = aT m c (ix2 (rowOf (band t) q) (colOf (run t) j)) := by
  have hi := idx_T t
  show iblk m c 1 t (ix2 q j) = V m c main_v7 (ix2 (rowOf (band t) q) (colOf (run t) j))
  unfold iblk
  rw [View.read_apply]
  show V m c main_v7 _ = V m c main_v7 _
  congr 1
  funext a
  apply Fin.ext
  match a with
  | ⟨0, _⟩ => show win0_1.index t 0 * 1024 + 1 * q.val = (t.val / 8) * 1024 + q.val; rw [hi.1]; omega
  | ⟨1, _⟩ => show win0_1.index t 1 * 512 + 1 * j.val = (t.val % 8) * 512 + j.val; rw [hi.2]; omega

theorem blk_alpha (c : Dev nD) (t : Fin cfg0.N) (q : Fin 1024) (b : Fin 32) :
    bA m c t (ix2 q b) = aA m c (ix2 (rowOf (band t) q) b) := by
  have hi := idx_alpha t
  show iblk m c 2 t (ix2 q b) = V m c main_arg2 (ix2 (rowOf (band t) q) b)
  unfold iblk
  rw [View.read_apply]
  show V m c main_arg2 _ = V m c main_arg2 _
  congr 1
  funext a
  apply Fin.ext
  match a with
  | ⟨0, _⟩ => show win0_2.index t 0 * 1024 + 1 * q.val = (t.val / 8) * 1024 + q.val; rw [hi.1]; omega
  | ⟨1, _⟩ => show win0_2.index t 1 * 32 + 1 * b.val = b.val; rw [hi.2]; omega

theorem blk_mu (c : Dev nD) (t : Fin cfg0.N) (q : Fin 1024) (b : Fin 32) :
    bM m c t (ix2 q b) = aM m c (ix2 (rowOf (band t) q) b) := by
  have hi := idx_mu t
  show iblk m c 3 t (ix2 q b) = V m c main_arg3 (ix2 (rowOf (band t) q) b)
  unfold iblk
  rw [View.read_apply]
  show V m c main_arg3 _ = V m c main_arg3 _
  congr 1
  funext a
  apply Fin.ext
  match a with
  | ⟨0, _⟩ => show win0_3.index t 0 * 1024 + 1 * q.val = (t.val / 8) * 1024 + q.val; rw [hi.1]; omega
  | ⟨1, _⟩ => show win0_3.index t 1 * 32 + 1 * b.val = b.val; rw [hi.2]; omega

theorem blk_onehot (c : Dev nD) (t : Fin cfg0.N) (b : Fin 32) (j : Fin 512) :
    bOH m c t (ix2 b j) = aOH m c (ix2 b (colOf (run t) j)) := by
  have hi := idx_onehot t
  show iblk m c 4 t (ix2 b j) = V m c main_v6 (ix2 b (colOf (run t) j))
  unfold iblk
  rw [View.read_apply]
  show V m c main_v6 _ = V m c main_v6 _
  congr 1
  funext a
  apply Fin.ext
  match a with
  | ⟨0, _⟩ => show win0_4.index t 0 * 32 + 1 * b.val = b.val; rw [hi.1]; omega
  | ⟨1, _⟩ => show win0_4.index t 1 * 512 + 1 * j.val = (t.val % 8) * 512 + j.val; rw [hi.2]; omega

theorem blk_bias (c : Dev nD) (t : Fin cfg0.N) (q : Fin 1024) :
    bB m c t (ix2 (0 : Fin 1) q) = aB m c (ix2 (0 : Fin 1) (rowOf (band t) q)) := by
  have hi := idx_bias t
  show iblk m c 5 t (ix2 (0 : Fin 1) q) = V m c main_v9 (ix2 (0 : Fin 1) (rowOf (band t) q))
  unfold iblk
  rw [View.read_apply]
  show V m c main_v9 _ = V m c main_v9 _
  congr 1
  funext a
  apply Fin.ext
  match a with
  | ⟨0, _⟩ => show win0_5.index t 0 * 1 + 1 * 0 = 0; rw [hi.1]
  | ⟨1, _⟩ => show win0_5.index t 1 * 1024 + 1 * q.val = (t.val / 8) * 1024 + q.val; rw [hi.2]; omega

end Cert.KernelIdeal.Blocks

end
-- ==== Proof.KernelAcc.lean ====
/-
  The accumulation over the grid. Point t = oi·8 + k works on the `oi`-th band of 1024 output rows and the `k`-th run of
  512 columns; the scratch after it holds, at (p, q), the runs 0 … k of entry (p, oi·1024 + q) added in order from zero;
  at k = 7 the output's block (0, oi) is written with that plus the bias. The four written blocks tile the output array.
-/
import proofs.«404446_j87608742904344_1_alg».proof.Proof.Gen.KernelIdeal.Frame
import proofs.«404446_j87608742904344_1_alg».proof.Proof.Spec
import proofs.«404446_j87608742904344_1_alg».proof.Proof.KernelPieces
import proofs.«404446_j87608742904344_1_alg».proof.Proof.KernelPayload
import proofs.«404446_j87608742904344_1_alg».proof.Proof.KernelBlocks
import Idealize.ShloMosaic.Lib.Pipeline.Value

set_option maxRecDepth 16384

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Tern

variable (m : (ℓ : Loc nD τ sig) → Buf (Elt Ideal) ℓ)

/-- The output array after the region, as contents of its buffer: `kernelOut` of the arrays the region finds. -/
def outArr (c : Dev nD) : Buf (Elt Ideal) ((c : Thread nD τ).loc main_v10) :=
  fun j => kernelOut (V m c main_v8) (V m c main_v7) (V m c main_arg2) (V m c main_arg3) (V m c main_v6) (V m c main_v9)
    ⟨(j 0).val, (j 0).isLt⟩ ⟨(j 1).val, (j 1).isLt⟩

theorem outArr_apply (c : Dev nD) (p : Fin 1024) (o : Fin 4096) :
    (outArr m c : S1024x4096.Idx → EReal) (ix2 p o)
      = kernelOut (V m c main_v8) (V m c main_v7) (V m c main_arg2) (V m c main_arg3) (V m c main_v6) (V m c main_v9) p o := rfl

open Cert.KernelIdeal.Blocks

/-! ## One point's update, over the arrays -/

/-- Run `i` of entry (p, o) for `i < 8`, zero beyond: the runs indexed by naturals, so that partial sums are sums over
    an initial segment. -/
def runAt (c : Dev nD) (p : Fin 1024) (o : Fin 4096) (i : ℕ) : EReal :=
  if h : i < 8 then kRun (aX m c) (aT m c) (aA m c) (aM m c) (aOH m c) p o ⟨i, h⟩ else 0

theorem runAt_run (c : Dev nD) (p : Fin 1024) (o : Fin 4096) (t : Fin cfg0.N) :
    runAt m c p o (t.val % 8) = kRun (aX m c) (aT m c) (aA m c) (aM m c) (aOH m c) p o (run t) :=
  dif_pos (Nat.mod_lt _ (by decide))

/-- The update at point `t` adds, at (p, q), run `run t` of entry (p, band t · 1024 + q): each staged block read where it
    lies in its array. -/
theorem pay2_step (c : Dev nD) (t : Fin cfg0.N) (acc : Vec Ideal S1024x1024 .f32) (p q : Fin 1024) :
    k0_pay2 (bA m c t) (bM m c t) (bOH m c t) (bT m c t) (bX m c t) acc (ix2 p q)
      = acc (ix2 p q) + kRun (aX m c) (aT m c) (aA m c) (aM m c) (aOH m c) p (rowOf (band t) q) (run t) := by
  refine (Payload.pay2_apply (bA m c t) (bM m c t) (bOH m c t) (bT m c t) (bX m c t) acc p q).trans
    (congrArg (fun z : EReal => acc (ix2 p q) + z) ?_)
  unfold kRun kWeight
  refine Finset.sum_congr rfl fun j _ => ?_
  have e3 : ∑ b : Fin 32, bA m c t (ix2 q b) * bOH m c t (ix2 b j)
      = ∑ b : Fin 32, aA m c (ix2 (rowOf (band t) q) b) * aOH m c (ix2 b (colOf (run t) j)) :=
    Finset.sum_congr rfl fun b _ => by rw [blk_alpha m c t q b, blk_onehot m c t b j]
  have e4 : ∑ b : Fin 32, bM m c t (ix2 q b) * bOH m c t (ix2 b j)
      = ∑ b : Fin 32, aM m c (ix2 (rowOf (band t) q) b) * aOH m c (ix2 b (colOf (run t) j)) :=
    Finset.sum_congr rfl fun b _ => by rw [blk_mu m c t q b, blk_onehot m c t b j]
  rw [blk_x m c t p j, blk_T m c t q j, e3, e4]

/-! ## What each point leaves, as the payloads of its blocks -/

/-- A run's first point leaves the update over the zero block. -/
theorem scratch_first (c : Dev nD) (t : Fin cfg0.N) (h0 : t.val % 8 = 0) :
    (outsAt0 m c t.val t.isLt).2
      = k0_pay2 (bA m c t) (bM m c t) (bOH m c t) (bT m c t) (bX m c t) (k0_pay1 (F := Ideal)) := by
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _)
    ((hcond0_0 t).mpr h0) (fun h => h1 ((hcond0_1 t).mp h))
    (iblk m c 0 t) (iblk m c 1 t) (iblk m c 2 t) (iblk m c 3 t) (iblk m c 4 t) (iblk m c 5 t)

/-- Every other point leaves the update over what the point before left. -/
theorem scratch_next (c : Dev nD) (t : Fin cfg0.N) (h0 : ¬t.val % 8 = 0) :
    (outsAt0 m c t.val t.isLt).2
      = k0_pay2 (bA m c t) (bM m c t) (bOH m c t) (bT m c t) (bX m c t)
          (outsAt0 m c (t.val - 1) (Nat.lt_of_le_of_lt (Nat.sub_le _ _) t.isLt)).2 := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _)
      (fun h => h0 ((hcond0_0 t).mp h)) (fun h => h1 ((hcond0_1 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2

/-- A run's last point writes the output's block with the bias row added onto what it leaves in the scratch. -/
theorem out_last (c : Dev nD) (t : Fin cfg0.N) (h1 : t.val % 8 = 7) :
    (outsAt0 m c t.val t.isLt).1 = k0_pay3 (outsAt0 m c t.val t.isLt).2 (bB m c t) := by
  have h0 : ¬t.val % 8 = 0 := by omega
  rw [outsAt0_C m c t h0 h1]
  dsimp only
  rw [Pieces.scratch_C (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2]
  exact Pieces.out_C (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2

/-! ## The scratch after each point -/

/-- One step of the invariant: if the point before `t` (when `t` is not a run's first) left the runs before `run t` of
    its entries added from zero, then `t` leaves those and run `run t`. -/
theorem inv_step (c : Dev nD) (t : Fin cfg0.N) (p q : Fin 1024)
    (hprev : ¬t.val % 8 = 0 →
      (outsAt0 m c (t.val - 1) (Nat.lt_of_le_of_lt (Nat.sub_le _ _) t.isLt)).2 (ix2 p q)
        = ∑ i ∈ Finset.range ((t.val - 1) % 8 + 1),
            runAt m c p (rowOf (band ⟨t.val - 1, Nat.lt_of_le_of_lt (Nat.sub_le _ _) t.isLt⟩) q) i) :
    (outsAt0 m c t.val t.isLt).2 (ix2 p q)
      = ∑ i ∈ Finset.range (t.val % 8 + 1), runAt m c p (rowOf (band t) q) i := by
  rw [Finset.sum_range_succ, runAt_run m c p _ t]
  by_cases h0 : t.val % 8 = 0
  · rw [scratch_first m c t h0]
    refine (pay2_step m c t (k0_pay1 (F := Ideal)) p q).trans ?_
    rw [Payload.pay1_apply, h0, Finset.sum_range_zero]
  · rw [scratch_next m c t h0]
    refine (pay2_step m c t (outsAt0 m c (t.val - 1) (Nat.lt_of_le_of_lt (Nat.sub_le _ _) t.isLt)).2 p q).trans ?_
    rw [hprev h0]
    have e : (t.val - 1) % 8 + 1 = t.val % 8 := by omega
    have eb : band ⟨t.val - 1, Nat.lt_of_le_of_lt (Nat.sub_le _ _) t.isLt⟩ = band t :=
      Fin.ext (by show (t.val - 1) / 8 = t.val / 8; omega)
    rw [e, eb]

/-- After point `n` the scratch holds, at (p, q), the runs 0 … n mod 8 of entry (p, (n / 8)·1024 + q) added in order
    from zero: by induction on the point. -/
theorem scratch_inv (c : Dev nD) : ∀ (n : ℕ) (h : n < cfg0.N) (p q : Fin 1024),
    (outsAt0 m c n h).2 (ix2 p q)
      = ∑ i ∈ Finset.range (n % 8 + 1), runAt m c p (rowOf (band ⟨n, h⟩) q) i := by
  intro n
  induction n with
  | zero => exact fun h p q => inv_step m c ⟨0, h⟩ p q fun h0 => absurd rfl h0
  | succ n ih => exact fun h p q => inv_step m c ⟨n + 1, h⟩ p q fun _ => ih (Nat.lt_of_succ_lt h) p q

/-- At a run's last point the output's block holds, at (p, q), entry (p, band · 1024 + q) of the result: the eight runs
    added in order, then the bias. -/
theorem out_value (c : Dev nD) (t : Fin cfg0.N) (h1 : t.val % 8 = 7) (p q : Fin 1024) :
    (outsAt0 m c t.val t.isLt).1 (ix2 p q)
      = kernelOut (aX m c) (aT m c) (aA m c) (aM m c) (aOH m c) (aB m c) p (rowOf (band t) q) := by
  rw [out_last m c t h1]
  refine (Payload.pay3_apply (outsAt0 m c t.val t.isLt).2 (bB m c t) p q).trans ?_
  have e8 : t.val % 8 + 1 = 8 := by omega
  rw [scratch_inv m c t.val t.isLt p q, blk_bias m c t q, e8]
  unfold kernelOut
  refine congrArg (fun z : EReal => z + aB m c (ix2 (0 : Fin 1) (rowOf (band t) q))) ?_
  rw [Finset.sum_range]
  exact Finset.sum_congr rfl fun k _ => dif_pos k.isLt

/-! ## The write-backs and the array -/

/-- The output window's block at point `t` is block (0, t / 8): all 1024 rows, columns (t / 8)·1024 …. -/
theorem idx_out : ∀ t : Fin cfg0.N, win0_6.index t (0 : Fin 2) = 0 ∧ win0_6.index t (1 : Fin 2) = t.val / 8 :=
  (by decide +kernel : ∀ t : Fin grid0.N, win0_6.index t (0 : Fin 2) = 0 ∧ win0_6.index t (1 : Fin 2) = t.val / 8)

/-- What a run's last point writes back is its block of `outArr`. -/
theorem flushed_eq (c : Dev nD) (t : Fin cfg0.N) (hf : (cfg0.win 6).flush t = true) :
    (dats m 0 c).flushed 6 t = ((cfg0.win 6).blk t).view.read (Elt Ideal) (outArr m c) := by
  have h1 : t.val % 8 = 7 := (flush0_6 t).mp hf
  obtain ⟨e0, e1⟩ := idx_out t
  show (cfg0.win 6).cut (grid0.coords t) ((dats m 0 c).after 6 t) = _
  rw [after0_6]
  funext j
  rw [View.read_apply]
  have hj0 : (j 0).val < 1024 := (j 0).isLt
  have hj1 : (j 1).val < 1024 := (j 1).isLt
  have eL : (cfg0.win 6).xinj (grid0.coords t) j = ix2 (⟨(j 0).val, hj0⟩ : Fin 1024) (⟨(j 1).val, hj1⟩ : Fin 1024) := by
    funext a
    match a with
    | ⟨0, _⟩ => rfl
    | ⟨1, _⟩ => rfl
  show (outsAt0 m c t.val t.isLt).1 ((cfg0.win 6).xinj (grid0.coords t) j) = _
  rw [eL]
  refine (out_value m c t h1 ⟨(j 0).val, hj0⟩ ⟨(j 1).val, hj1⟩).trans ?_
  unfold outArr
  refine congrArg₂ (kernelOut (aX m c) (aT m c) (aA m c) (aM m c) (aOH m c) (aB m c)) (Fin.ext ?_) (Fin.ext ?_)
  · show (j 0).val = win0_6.index t (0 : Fin 2) * 1024 + 1 * (j 0).val
    rw [e0]; omega
  · show t.val / 8 * 1024 + (j 1).val = win0_6.index t (1 : Fin 2) * 1024 + 1 * (j 1).val
    rw [e1]; omega

/-- An index of the output array is in point `t`'s block iff each coordinate is in the block's range on its axis. -/
theorem mem_blk (t : Fin cfg0.N) (i : S1024x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v10).slice (win0_6.rect t)).set ↔ _
  rw [View.set_slice_whole, Rect.mem_set_unit]
  exact Iff.rfl

/-- Entry (p, o) lies in the block written back at the last point of band o / 1024. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 1024 := (i 0).isLt
  have hi1 : (i 1).val < 4096 := (i 1).isLt
  have hN : cfg0.N = 32 := N_0
  obtain ⟨t, ht⟩ : ∃ t : Fin cfg0.N, t.val = (i 1).val / 1024 * 8 + 7 := ⟨⟨(i 1).val / 1024 * 8 + 7, by omega⟩, rfl⟩
  obtain ⟨e0, e1⟩ := idx_out t
  refine ⟨t, (flush0_6 t).mpr (by omega), ?_⟩
  rw [mem_blk]
  intro a
  match a with
  | ⟨0, _⟩ =>
    show win0_6.index t (0 : Fin 2) * 1024 ≤ (i 0).val ∧ (i 0).val < win0_6.index t (0 : Fin 2) * 1024 + 1024
    rw [e0]; omega
  | ⟨1, _⟩ =>
    show win0_6.index t (1 : Fin 2) * 1024 ≤ (i 1).val ∧ (i 1).val < win0_6.index t (1 : Fin 2) * 1024 + 1024
    rw [e1]; omega

/-- The output array ends holding `outArr`. -/
theorem out_array (c : Dev nD) : (dats m 0 c).arrAt 6 cfg0.N = outArr m c :=
  (dats m 0 c).arrAt_eq_of_cover 6 (outArr m c) (flushed_eq m c) (cover c)

end Cert.KernelIdeal.Acc

end
-- ==== Proof.KernelRun.lean ====
/-
  The kernel program's result is `Tern.lin` of its arguments, when every entry of `perm` is a valid index.

  The output array the region leaves is `kernelOut` of the arrays it finds (the accumulation over the grid). Those arrays
  are gathers of the arguments: the 0/1 matrix picks, in each product with the scales and the offsets, the one term of the
  block that column `cq i` lies in, so the weight the kernel forms at column i is `weight` at column `cq i`; the gathered
  `x` reads column `cp i`; eight runs of 512 products are the 4096 products. The last host operation lays the [1024, 4096]
  output out as [2, 512, 4096]: entry (b, s, o) is row b·512 + s.
-/
import proofs.«404446_j87608742904344_1_alg».proof.Defs
import proofs.«404446_j87608742904344_1_alg».proof.Proof.Gen.KernelIdeal.Frame
import proofs.«404446_j87608742904344_1_alg».proof.Proof.Spec
import proofs.«404446_j87608742904344_1_alg».proof.Proof.Sums
import proofs.«404446_j87608742904344_1_alg».proof.Proof.KernelEntry
import proofs.«404446_j87608742904344_1_alg».proof.Proof.KernelEntryX
import proofs.«404446_j87608742904344_1_alg».proof.Proof.KernelEntryW
import proofs.«404446_j87608742904344_1_alg».proof.Proof.KernelAcc
import Idealize.ShloMosaic.Lib.StableHlo.Run
import Idealize.ShloMosaic.Lib.Pipeline.Value

set_option maxRecDepth 16384

noncomputable section

namespace Cert.KernelIdeal.KRun

open Idealize.ShloMosaic Idealize.ShloMosaic.TcCoe Idealize.ShloMosaic.ValueIdx Idealize.SL.Sem
open Cert.KernelIdeal Cert.KernelIdeal.Gen Cert.Tern Cert.KernelIdeal.Entry Cert.KernelIdeal.Acc

variable (m : (ℓ : Loc nD τ sig) → Buf (Elt Ideal) ℓ) (ρ : Dev nD → PrngReg)

/-- The weight the kernel forms at gathered column `i` is the weight at column `cq i`: each product with the 0/1
    matrix's column picks the term of the block that column lies in. -/
theorem kweight_eq (c : Dev nD) (o i : Fin 4096) :
    kWeight (entT m c) (entA m c) (entM m c) (entOH m c) o i = weight (argT m c) (argA m c) (argM m c) o (cq (argP m c) i) := by
  have ha : (∑ b : Fin 32, entA m c (ix2 o b) * entOH m c (ix2 b i)) = argA m c (ix2 o (blk (cq (argP m c) i))) := by
    rw [← sum_onehot (fun b => argA m c (ix2 o b)) (blk (cq (argP m c) i))]
    exact Finset.sum_congr rfl fun b _ => by rw [entry_onehot, entry_alpha]
  have hm : (∑ b : Fin 32, entM m c (ix2 o b) * entOH m c (ix2 b i)) = argM m c (ix2 o (blk (cq (argP m c) i))) := by
    rw [← sum_onehot (fun b => argM m c (ix2 o b)) (blk (cq (argP m c) i))]
    exact Finset.sum_congr rfl fun b _ => by rw [entry_onehot, entry_mu]
  unfold kWeight weight
  rw [ha, hm, entry_T]

/-- The output array's entry (p, o) is the result's entry (p / 512, p % 512, o). -/
theorem kernelOut_eq (c : Dev nD) (hv : ∀ i : Fin 4096, Valid (argP m c (ix1 i))) (p : Fin 1024) (o : Fin 4096) :
    kernelOut (entX m c) (entT m c) (entA m c) (entM m c) (entOH m c) (entB m c) p o
      = linAt (argX m c) (argT m c) (argA m c) (argM m c) (argP m c) (argB m c) ⟨p.val / 512, by omega⟩ ⟨p.val % 512, by omega⟩ o := by
  unfold kernelOut linAt kRun
  rw [entry_bias]
  refine congrArg (· + argB m c (ix1 o)) ?_
  rw [← sum_runs (fun i => argX m c (ix3 ⟨p.val / 512, by omega⟩ ⟨p.val % 512, by omega⟩ (cp (argP m c) i))
      * weight (argT m c) (argA m c) (argM m c) o (cq (argP m c) i))]
  refine Finset.sum_congr rfl fun k _ => Finset.sum_congr rfl fun j _ => ?_
  rw [entry_x m c p (colOf k j) (hv _), kweight_eq]

/-- After the last host operation the result buffer holds the output array laid out as [2, 512, 4096]. -/
theorem tail_eq (c : Dev nD) :
    Pipeline.afterTail₀ cfgs (dats m) 0 (V0 m) [hostOps1] c main_v11
      = shapeCast S2x512x4096 (outArr m c) shapeCasts_S1024x4096_S2x512x4096 := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.tc.devRef main_v10) = outArr m c :=
    (Pipeline.withArrays_arr spec0 launch0.win.arr_inj c _ _ 6).trans (out_array m c)
  rw [hw]
  rfl

/-- Entry (b, s, o) of the result is row b·512 + s of the output array, which is `linAt` at (b, s, o). -/
theorem result_eq (c : Dev nD) (hv : ∀ i : Fin 4096, Valid (argP m c (ix1 i))) :
    Pipeline.afterTail₀ cfgs (dats m) 0 (V0 m) [hostOps1] c main_v11
      = lin (argX m c) (argT m c) (argA m c) (argM m c) (argP m c) (argB m c) := by
  rw [tail_eq m c]
  funext j
  obtain ⟨b, s, o, rfl⟩ : ∃ (b : Fin 2) (s : Fin 512) (o : Fin 4096), j = ix3 b s o := ⟨j 0, j 1, j 2, eq_ix3 j⟩
  rw [lin_apply]
  have hb := b.isLt
  have hs := s.isLt
  refine (shapeCast_apply (outArr m c : S1024x4096.Idx → EReal) shapeCasts_S1024x4096_S2x512x4096 (ix3 b s o)
    (ix2 (⟨b.val * 512 + s.val, by omega⟩ : Fin 1024) o) (by
      show (S1024x4096.rowMajor (ix2 (⟨b.val * 512 + s.val, by omega⟩ : Fin 1024) o)).val = (S2x512x4096.rowMajor (ix3 b s o)).val
      rewrite [Shape.rowMajor_val_two, Shape.rowMajor_val_three]
      show (b.val * 512 + s.val) * 4096 + o.val = (b.val * 512 + s.val) * 4096 + o.val
      rfl)).trans ?_
  refine ((outArr_apply m c _ o).trans (kernelOut_eq m c hv _ o)).trans ?_
  have e1 : (⟨(b.val * 512 + s.val) / 512, by omega⟩ : Fin 2) = b := Fin.ext (by show (b.val * 512 + s.val) / 512 = b.val; omega)
  have e2 : (⟨(b.val * 512 + s.val) % 512, by omega⟩ : Fin 512) = s := Fin.ext (by show (b.val * 512 + s.val) % 512 = s.val; omega)
  show linAt _ _ _ _ _ _ (⟨(b.val * 512 + s.val) / 512, _⟩ : Fin 2) (⟨(b.val * 512 + s.val) % 512, _⟩ : Fin 512) o = _
  rw [e1, e2]

/-- The kernel program's run: it ends with its result at `lin` of the arguments, the arguments unchanged. -/
theorem run (hv : ∀ (c : Dev nD) (i : Fin 4096), Valid (argP m c (ix1 i))) :
    θ_run (defs (F := Ideal)) (onTc (τ := τ) (main (F := Ideal))) ⟨m, fun _ => 0, ρ⟩ fun r => ∀ c : Dev nD,
      r.2.mem ((c.tc : Thread nD τ).loc main_v11)
        = lin (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v11 (Pipeline.mem_restRefs_of main_v11 (by decide) (by decide))).trans (result_eq m c (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.Reference.lean ====
/-
  The reference's result is `Tern.lin` of its arguments: its weight array, reshaped from [4096, 32, 128] and gathered
  along its columns by the sorted positions, is `weight` at column `cq i`; its gathered `x` reads column `cp i`; its
  contraction over the 4096 positions is the sum; the bias is added last.
-/
import proofs.«404446_j87608742904344_1_alg».proof.Defs
import proofs.«404446_j87608742904344_1_alg».proof.Proof.Gen.ReferenceIdeal.Run
import proofs.«404446_j87608742904344_1_alg».proof.Proof.Gen.ReferenceIdeal.Read
import proofs.«404446_j87608742904344_1_alg».proof.Proof.Spec
import proofs.«404446_j87608742904344_1_alg».proof.Proof.Gather

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Tern
open Idealize.ShloMosaic.StableHlo.Predicate (ixP)

/-- The column a gather along an axis of extent 4096 reads for a start word equal to `w` is `col w`. -/
theorem col_of_eq (v w : BitVec 32) (h : v = w) (hlt : min v.toInt.toNat (4096 - 1) < 4096) :
    (⟨min v.toInt.toNat (4096 - 1), hlt⟩ : Fin 4096) = col w := by
  subst h
  rfl

/-- The comparator the reference sorts by compares the keys. -/
theorem comparator_eq :
    comparator_i32_i32_d0 = fun l r : BitVec 32 × BitVec 32 => IntOp.cmpi .slt l.1 r.1 := rfl

/-- The positions the reference's sort returns are `argsort` of the keys. -/
theorem sorted_eq (x4 : (⟨S4096, .i32⟩ : BufTy).Contents (Elt Ideal)) :
    Cert.ReferenceIdeal.Read.val_main_v0 (F := Ideal) x4 = argsort x4 := by
  unfold Cert.ReferenceIdeal.Read.val_main_v0 Cert.ReferenceIdeal.Read.val_main_call0_v0 argsort
  rw [comparator_eq]

/-- The start word of position `i` of the gather of `x`: the `i`-th key, a negative one with the extent added. -/
theorem start_x (x4 : (⟨S4096, .i32⟩ : BufTy).Contents (Elt Ideal)) (i : Fin 4096) :
    Cert.ReferenceIdeal.Read.val_main_v15 (F := Ideal) x4 (ixP i) = wrap (x4 (ix1 i)) := by
  have e : Cert.ReferenceIdeal.Read.idx_main_v15 (ixP i) = ix1 i := funext fun a => match a with | ⟨0, _⟩ => rfl
  rw [Read.val_main_v15_apply, Read.val_main_v14_apply, Read.val_main_v11_apply, Read.val_main_v13_apply,
    Read.val_main_v10_apply, Read.val_main_v12_apply, Read.val_main_c_apply, Read.val_main_c_0_apply, e]
  rfl

/-- The start word of position `i` of the gather of the weight: the `i`-th sorted position, a negative one with the
    extent added. -/
theorem start_w (x4 : (⟨S4096, .i32⟩ : BufTy).Contents (Elt Ideal)) (i : Fin 4096) :
    Cert.ReferenceIdeal.Read.val_main_v22 (F := Ideal) x4 (ixP i) = wrap (argsort x4 (ix1 i)) := by
  have e : Cert.ReferenceIdeal.Read.idx_main_v22 (ixP i) = ix1 i := funext fun a => match a with | ⟨0, _⟩ => rfl
  rw [Read.val_main_v22_apply, Read.val_main_v21_apply, Read.val_main_v18_apply, Read.val_main_v20_apply,
    Read.val_main_v17_apply, Read.val_main_v19_apply, Read.val_main_c_1_apply, Read.val_main_c_2_apply, e, sorted_eq]
  generalize argsort x4 = ip
  rfl

/-- The reference's weight array at row `o` and column `q`: the reshape to [4096, 32, 128] and back reads the code at
    (o, q) and the scale and offset of block `q / 128`. -/
theorem weight_eq (x1 : (⟨S4096x4096, .i32⟩ : BufTy).Contents (Elt Ideal)) (x2 x3 : (⟨S4096x32, .f32⟩ : BufTy).Contents (Elt Ideal))
    (o q : Fin 4096) :
    Cert.ReferenceIdeal.Read.val_main_v9 (F := Ideal) x1 x2 x3 (ix2 o q) = weight x1 x2 x3 o q := by
  have ho := o.isLt
  have hq := q.isLt
  have ea : Cert.ReferenceIdeal.Read.idx_main_v3 (Cert.ReferenceIdeal.Read.idx_main_v4 (Cert.ReferenceIdeal.Read.idx_main_v9 (ix2 o q)))
      = ix2 o (blk q) := funext fun a => match a with
    | ⟨0, _⟩ => Fin.ext (by show (o.val * 4096 + q.val) / 4096 = o.val; omega)
    | ⟨1, _⟩ => Fin.ext (by show (o.val * 4096 + q.val) / 128 % 32 = q.val / 128; omega)
  have ec : Cert.ReferenceIdeal.Read.idx_main_v6 (Cert.ReferenceIdeal.Read.idx_main_v7 (Cert.ReferenceIdeal.Read.idx_main_v9 (ix2 o q)))
      = ix2 o (blk q) := funext fun a => match a with
    | ⟨0, _⟩ => Fin.ext (by show (o.val * 4096 + q.val) / 4096 = o.val; omega)
    | ⟨1, _⟩ => Fin.ext (by show (o.val * 4096 + q.val) / 128 % 32 = q.val / 128; omega)
  have eb : Cert.ReferenceIdeal.Read.idx_main_v1 (Cert.ReferenceIdeal.Read.idx_main_v9 (ix2 o q)) = ix2 o q :=
    funext fun a => match a with
    | ⟨0, _⟩ => Fin.ext (by
        show (((o.val * 4096 + q.val) / 4096 * 32 + (o.val * 4096 + q.val) / 128 % 32) * 128 + (o.val * 4096 + q.val) % 128) / 4096 = o.val
        omega)
    | ⟨1, _⟩ => Fin.ext (by
        show (((o.val * 4096 + q.val) / 4096 * 32 + (o.val * 4096 + q.val) / 128 % 32) * 128 + (o.val * 4096 + q.val) % 128) % 4096 = q.val
        omega)
  rw [Read.val_main_v9_apply, Read.val_main_v8_apply, Read.val_main_v5_apply, Read.val_main_v7_apply, Read.val_main_v6_apply,
    Read.val_main_v4_apply, Read.val_main_v3_apply, Read.val_main_v2_apply, Read.val_main_v1_apply, ea, eb, ec]
  rfl

/-- The reference's last stage, as a function of the six arguments, is `lin`. -/
theorem result_eq (x0 : (⟨S2x512x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S4096, .i32⟩ : BufTy).Contents (Elt Ideal))
    (x5 : (⟨S4096, .f32⟩ : BufTy).Contents (Elt Ideal)) :
    Cert.ReferenceIdeal.Read.val_main_v27 (F := Ideal) x0 x1 x2 x3 x4 x5 = lin x0 x1 x2 x3 x4 x5 := by
  funext j
  obtain ⟨b, s, o, rfl⟩ : ∃ (b : Fin 2) (s : Fin 512) (o : Fin 4096), j = ix3 b s o := ⟨j 0, j 1, j 2, eq_ix3 j⟩
  have el : ∀ k : Fin 4096, Cert.ReferenceIdeal.Read.lidx_main_v24 (ix3 b s o) k = ix3 b s k := fun k => funext fun a =>
    match a with | ⟨0, _⟩ => rfl | ⟨1, _⟩ => rfl | ⟨2, _⟩ => rfl
  have er : ∀ k : Fin 4096, Cert.ReferenceIdeal.Read.ridx_main_v24 (ix3 b s o) k = ix2 o k := fun k => funext fun a =>
    match a with | ⟨0, _⟩ => rfl | ⟨1, _⟩ => rfl
  have eb : Cert.ReferenceIdeal.Read.idx_main_v25 (Cert.ReferenceIdeal.Read.idx_main_v26 (ix3 b s o)) = ix1 o :=
    funext fun a => match a with | ⟨0, _⟩ => rfl
  rw [lin_apply, Read.val_main_v27_apply, Read.val_main_v24_apply, Read.val_main_v26_apply, Read.val_main_v25_apply, eb,
    Ideal.addf_def]
  unfold linAt
  refine congrArg₂ (· + ·) (Finset.sum_congr rfl fun k _ => ?_) rfl
  rw [el, er]
  refine congrArg₂ (· * ·) ?_ ?_
  · unfold Cert.ReferenceIdeal.Read.val_main_v16
    refine (gather_cols3 (A := 2) (B := 512) (N := 4096) (n := 4096) _ rfl rfl rfl rfl rfl x0 _ b s k (by omega)).trans ?_
    exact congrArg (fun c : Fin 4096 => x0 (ix3 b s c)) (col_of_eq _ _ (start_x x4 k) _)
  · unfold Cert.ReferenceIdeal.Read.val_main_v23
    refine (gather_cols2 (R := 4096) (N := 4096) (n := 4096) _ rfl rfl rfl rfl rfl _ _ o k (by omega)).trans ?_
    refine (congrArg (fun c : Fin 4096 => Cert.ReferenceIdeal.Read.val_main_v9 (F := Ideal) x1 x2 x3 (ix2 o c))
      (col_of_eq _ _ (start_w x4 k) _)).trans ?_
    exact weight_eq x1 x2 x3 o (cq x4 k)

/-- The reference's run: it ends with its result at `lin` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
        = lin (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨by rw [(h c).1, Read.val_main_v27_eq, result_eq], (h c).2⟩)
    (Value.run (F := Ideal) m ρ)

end Cert.ReferenceIdeal.RefValue

end
-- ==== Proof.lean ====
/-
  A block-wise ternary linear layer: the weight of output row o and column q is alpha[o, q / 128] · T[o, q] + mu[o, q / 128]
  with integer codes T; the input's columns are permuted by `perm` and the weight's by the sorted positions of `perm`;
  the result is the product of the two over the 4096 columns, plus a bias.

  Both programs compute, at (b, s, o),

      Σ_{i < 4096}  x[b, s, cp i] · weight o (cq i)  +  bias[o]            (`Tern.lin`, Proof/Spec.lean)

  on the extended reals, where `cp i` is the column `perm[i]` names (a negative word read from the end) and `cq i` the
  column the i-th sorted position names. The reference forms the whole weight array and gathers its columns; the kernel
  gathers the codes, selects the scales and offsets by a product with a 0/1 matrix (a · 0 = 0 and a · 1 = a for every
  extended real a, so each product picks one term), and adds the 4096 products up in eight runs of 512 — a regrouping
  of one sum, which commutativity and associativity of addition allow; no finiteness is used.

  The kernel's gather of `x` fills positions whose index is out of range with a not-a-number pattern, where the reference's
  reads the nearest column; the two agree when every entry of `perm` is a valid index into the axis (−4096 ≤ perm[i] < 4096),
  which the precondition states. The sorted positions are positions, so the other gathers never fill.

  The three frames: the kernel programs' are the generated frame certificates; the reference's is its run with the
  result dropped. The idealization rewrote nothing, so `preserves` is trivial.
-/
import proofs.«404446_j87608742904344_1_alg».proof.Defs
import proofs.«404446_j87608742904344_1_alg».proof.Proof.Gen.Kernel
import proofs.«404446_j87608742904344_1_alg».proof.Proof.Gen.Kernel.Frame
import proofs.«404446_j87608742904344_1_alg».proof.Proof.Gen.KernelIdeal
import proofs.«404446_j87608742904344_1_alg».proof.Proof.Gen.KernelIdeal.Frame
import proofs.«404446_j87608742904344_1_alg».proof.Proof.Gen.ReferenceIdeal
import proofs.«404446_j87608742904344_1_alg».proof.Proof.Gen.Pre_finite_inputs
import proofs.«404446_j87608742904344_1_alg».proof.Proof.Precondition
import proofs.«404446_j87608742904344_1_alg».proof.Proof.KernelRun
import proofs.«404446_j87608742904344_1_alg».proof.Proof.Reference
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with their result at `Tern.lin` of the same arguments: the kernel's by its run (the precondition
    gives that every entry of `perm` is a valid index), the reference's by its run. -/
theorem algebraic : Cert.algebraic_KernelIdeal_ReferenceIdeal := by
  intro m ρ m' ρ' hpre hagree
  have hv : ∀ (c : Dev Cert.KernelIdeal.nD) (i : Fin 4096),
      Cert.Tern.Valid (m ((c.tc : Thread Cert.KernelIdeal.nD Cert.KernelIdeal.τ).loc Cert.KernelIdeal.main_arg4) (ix1 i)) :=
    fun c i => Cert.Tern.valid_of_fn _ _ _ _ _ _ (hpre c) i
  refine ⟨_, Cert.KernelIdeal.KRun.run m ρ hv, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
